-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x480x640 : Shape := ⟨4, ![16, 9, 480, 640]⟩
abbrev S16x1x480x640 : Shape := ⟨4, ![16, 1, 480, 640]⟩
abbrev S_ : Shape := ⟨0, ![]⟩

class Facts : Prop where
  bcast_S_S16x9x480x640 : S_.BroadcastsInDim S16x9x480x640 (![] : Fin 0 → Fin S16x9x480x640.rank)
  reducesTo_S16x9x480x640_S_d0_1_2_3 : S16x9x480x640.ReducesTo [0, 1, 2, 3] S_
  h_S_ : 0 < S_.numel
  bcast_S_S16x1x480x640 : S_.BroadcastsInDim S16x1x480x640 (![] : Fin 0 → Fin S16x1x480x640.rank)
  reducesTo_S16x1x480x640_S_d0_1_2_3 : S16x1x480x640.ReducesTo [0, 1, 2, 3] S_

variable [Facts]

def fn {F : FTy → Type} [FloatOps F] (main_arg0 : FVec F S16x9x480x640 .f32) (main_arg1 : FVec F S16x1x480x640 .f32) (main_arg2 : FVec F S16x1x480x640 .f32) : IVec S_ 1 :=
  let main_v0 : FVec F S16x9x480x640 .f32 := Host.absf main_arg0
  let main_cst : FVec F S_ .f32 := constant S_ .f32 0x7F800000#32
  let main_v1 : FVec F S16x9x480x640 .f32 := broadcastInDim S16x9x480x640 ![] bcast_S_S16x9x480x640 main_cst
  let main_v2 : IVec S16x9x480x640 1 := cmpf .olt main_v0 main_v1
  let main_c : IVec S_ 1 := constantI S_ 1 1#1
  let main_v3 : IVec S_ 1 := (fun x v => Host.reduce IntOp.andi x v reducesTo_S16x9x480x640_S_d0_1_2_3 h_S_) main_v2 main_c
  let main_v4 : FVec F S16x1x480x640 .f32 := Host.absf main_arg1
  let main_cst_0 : FVec F S_ .f32 := constant S_ .f32 0x7F800000#32
  let main_v5 : FVec F S16x1x480x640 .f32 := broadcastInDim S16x1x480x640 ![] bcast_S_S16x1x480x640 main_cst_0
  let main_v6 : IVec S16x1x480x640 1 := cmpf .olt main_v4 main_v5
  let main_c_1 : IVec S_ 1 := constantI S_ 1 1#1
  let main_v7 : IVec S_ 1 := (fun x v => Host.reduce IntOp.andi x v reducesTo_S16x1x480x640_S_d0_1_2_3 h_S_) main_v6 main_c_1
  let main_v8 : IVec S_ 1 := andi main_v3 main_v7
  let main_v9 : FVec F S16x1x480x640 .f32 := Host.absf main_arg2
  let main_cst_2 : FVec F S_ .f32 := constant S_ .f32 0x7F800000#32
  let main_v10 : FVec F S16x1x480x640 .f32 := broadcastInDim S16x1x480x640 ![] bcast_S_S16x1x480x640 main_cst_2
  let main_v11 : IVec S16x1x480x640 1 := cmpf .olt main_v9 main_v10
  let main_c_3 : IVec S_ 1 := constantI S_ 1 1#1
  let main_v12 : IVec S_ 1 := (fun x v => Host.reduce IntOp.andi x v reducesTo_S16x1x480x640_S_d0_1_2_3 h_S_) main_v11 main_c_3
  let main_v13 : IVec S_ 1 := andi main_v8 main_v12
  main_v13
-- ==== Kernel.lean ====
abbrev S16x9x480x640 : Shape := ⟨4, ![16, 9, 480, 640]⟩
abbrev S16x1x480x640 : Shape := ⟨4, ![16, 1, 480, 640]⟩
abbrev S1x9x480x640 : Shape := ⟨4, ![1, 9, 480, 640]⟩
abbrev S1x1x480x640 : Shape := ⟨4, ![1, 1, 480, 640]⟩
abbrev S488x768 : Shape := ⟨2, ![488, 768]⟩
abbrev S480x640 : Shape := ⟨2, ![480, 640]⟩

abbrev nBuf : Space → Nat
  | .hbm => 4
  | .vmem => 9
  | .smem => 0
  | _ => 0

abbrev bufTy : (tb : Table) → Fin (tcTables nBuf tb) → BufTy
  | .hbm, ⟨0, _⟩ => ⟨S16x9x480x640, .f32⟩
  | .hbm, ⟨1, _⟩ => ⟨S16x1x480x640, .f32⟩
  | .hbm, ⟨2, _⟩ => ⟨S16x1x480x640, .f32⟩
  | .hbm, ⟨3, _⟩ => ⟨S16x1x480x640, .f32⟩
  | .local _ .vmem, ⟨0, _⟩ => ⟨S1x9x480x640, .f32⟩
  | .local _ .vmem, ⟨1, _⟩ => ⟨S1x9x480x640, .f32⟩
  | .local _ .vmem, ⟨2, _⟩ => ⟨S1x1x480x640, .f32⟩
  | .local _ .vmem, ⟨3, _⟩ => ⟨S1x1x480x640, .f32⟩
  | .local _ .vmem, ⟨4, _⟩ => ⟨S1x1x480x640, .f32⟩
  | .local _ .vmem, ⟨5, _⟩ => ⟨S1x1x480x640, .f32⟩
  | .local _ .vmem, ⟨6, _⟩ => ⟨S1x1x480x640, .f32⟩
  | .local _ .vmem, ⟨7, _⟩ => ⟨S1x1x480x640, .f32⟩
  | .local _ .vmem, ⟨8, _⟩ => ⟨S488x768, .f32⟩
  | _, _ => ⟨S16x9x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x480x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x480x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x480x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S488x768_S488x768_0_0 : ∀ a, (![0, 0] : Fin 2 → Nat) a + S488x768.size a ≤ S488x768.size a
  h_S488x768 : 0 < S488x768.numel
  shapeCasts_S488x768_S488x768 : S488x768.ShapeCasts S488x768
  inb_S1x1x480x640_S1x1x480x640_0_0_0_0 : ∀ a, (![0, 0, 0, 0] : Fin 4 → Nat) a + S1x1x480x640.size a ≤ S1x1x480x640.size a
  h_S1x1x480x640 : 0 < S1x1x480x640.numel
  shapeCasts_S1x1x480x640_S480x640 : S1x1x480x640.ShapeCasts S480x640
  inb_S488x768_S480x640_1_1 : ∀ a, (![1, 1] : Fin 2 → Nat) a + S480x640.size a ≤ S488x768.size a
  h_S480x640 : 0 < S480x640.numel
  shapeCasts_S480x640_S480x640 : S480x640.ShapeCasts S480x640
  inb_S488x768_S480x640_0_0 : ∀ a, (![0, 0] : Fin 2 → Nat) a + S480x640.size a ≤ S488x768.size a
  inb_S1x9x480x640_S1x1x480x640_0_0_0_0 : ∀ a, (![0, 0, 0, 0] : Fin 4 → Nat) a + S1x1x480x640.size a ≤ S1x9x480x640.size a
  inb_S488x768_S480x640_0_1 : ∀ a, (![0, 1] : Fin 2 → Nat) a + S480x640.size a ≤ S488x768.size a
  inb_S1x9x480x640_S1x1x480x640_0_1_0_0 : ∀ a, (![0, 1, 0, 0] : Fin 4 → Nat) a + S1x1x480x640.size a ≤ S1x9x480x640.size a
  inb_S488x768_S480x640_0_2 : ∀ a, (![0, 2] : Fin 2 → Nat) a + S480x640.size a ≤ S488x768.size a
  inb_S1x9x480x640_S1x1x480x640_0_2_0_0 : ∀ a, (![0, 2, 0, 0] : Fin 4 → Nat) a + S1x1x480x640.size a ≤ S1x9x480x640.size a
  inb_S488x768_S480x640_1_0 : ∀ a, (![1, 0] : Fin 2 → Nat) a + S480x640.size a ≤ S488x768.size a
  inb_S1x9x480x640_S1x1x480x640_0_3_0_0 : ∀ a, (![0, 3, 0, 0] : Fin 4 → Nat) a + S1x1x480x640.size a ≤ S1x9x480x640.size a
  inb_S1x9x480x640_S1x1x480x640_0_4_0_0 : ∀ a, (![0, 4, 0, 0] : Fin 4 → Nat) a + S1x1x480x640.size a ≤ S1x9x480x640.size a
  inb_S488x768_S480x640_1_2 : ∀ a, (![1, 2] : Fin 2 → Nat) a + S480x640.size a ≤ S488x768.size a
  inb_S1x9x480x640_S1x1x480x640_0_5_0_0 : ∀ a, (![0, 5, 0, 0] : Fin 4 → Nat) a + S1x1x480x640.size a ≤ S1x9x480x640.size a
  inb_S488x768_S480x640_2_0 : ∀ a, (![2, 0] : Fin 2 → Nat) a + S480x640.size a ≤ S488x768.size a
  inb_S1x9x480x640_S1x1x480x640_0_6_0_0 : ∀ a, (![0, 6, 0, 0] : Fin 4 → Nat) a + S1x1x480x640.size a ≤ S1x9x480x640.size a
  inb_S488x768_S480x640_2_1 : ∀ a, (![2, 1] : Fin 2 → Nat) a + S480x640.size a ≤ S488x768.size a
  inb_S1x9x480x640_S1x1x480x640_0_7_0_0 : ∀ a, (![0, 7, 0, 0] : Fin 4 → Nat) a + S1x1x480x640.size a ≤ S1x9x480x640.size a
  inb_S488x768_S480x640_2_2 : ∀ a, (![2, 2] : Fin 2 → Nat) a + S480x640.size a ≤ S488x768.size a
  inb_S1x9x480x640_S1x1x480x640_0_8_0_0 : ∀ a, (![0, 8, 0, 0] : Fin 4 → Nat) a + S1x1x480x640.size a ≤ S1x9x480x640.size a
  shapeCasts_S480x640_S1x1x480x640 : S480x640.ShapeCasts S1x1x480x640
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x480x640.size a ≤ S16x9x480x640.size a
  hwx0_0 : ∀ i : grid0.Coords, EltTy.bits .f32 = 32 ∨ (Rect.block (s := S16x9x480x640) S1x9x480x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x480x640.size a ≤ S16x1x480x640.size a
  hwx0_1 : ∀ i : grid0.Coords, EltTy.bits .f32 = 32 ∨ (Rect.block (s := S16x1x480x640) S1x1x480x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x480x640.size a ≤ S16x1x480x640.size a
  hwx0_2 : ∀ i : grid0.Coords, EltTy.bits .f32 = 32 ∨ (Rect.block (s := S16x1x480x640) S1x1x480x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x480x640.size a ≤ S16x1x480x640.size a
  hwx0_3 : ∀ i : grid0.Coords, EltTy.bits .f32 = 32 ∨ (Rect.block (s := S16x1x480x640) S1x1x480x640.size (cc0_transform_3 i) (hinb0_3 i)).WholeWords (EltTy.packing .f32)

variable [Facts₀]

abbrev win0_0 : Pipeline.Window sig grid0 :=
  Pipeline.Window.ofSpec (Memref.whole main_arg0) S1x9x480x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x480x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x480x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x480x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x9x480x640 : Shape := ⟨4, ![16, 9, 480, 640]⟩
abbrev S16x1x480x640 : Shape := ⟨4, ![16, 1, 480, 640]⟩
abbrev S16x480x640 : Shape := ⟨3, ![16, 480, 640]⟩
abbrev S_ : Shape := ⟨0, ![]⟩
abbrev S16x482x642 : Shape := ⟨3, ![16, 482, 642]⟩
abbrev S1 : Shape := ⟨1, ![1]⟩

abbrev nBuf : Space → Nat
  | .hbm => 34
  | .vmem => 0
  | .smem => 0
  | _ => 0

abbrev bufTy : (tb : Table) → Fin (tcTables nBuf tb) → BufTy
  | .hbm, ⟨0, _⟩ => ⟨S16x9x480x640, .f32⟩
  | .hbm, ⟨1, _⟩ => ⟨S16x1x480x640, .f32⟩
  | .hbm, ⟨2, _⟩ => ⟨S16x1x480x640, .f32⟩
  | .hbm, ⟨3, _⟩ => ⟨S16x480x640, .f32⟩
  | .hbm, ⟨4, _⟩ => ⟨S_, .i32⟩
  | .hbm, ⟨5, _⟩ => ⟨S_, .f32⟩
  | .hbm, ⟨6, _⟩ => ⟨S16x482x642, .f32⟩
  | .hbm, ⟨7, _⟩ => ⟨S16x480x640, .f32⟩
  | .hbm, ⟨8, _⟩ => ⟨S16x480x640, .f32⟩
  | .hbm, ⟨9, _⟩ => ⟨S16x480x640, .f32⟩
  | .hbm, ⟨10, _⟩ => ⟨S16x480x640, .f32⟩
  | .hbm, ⟨11, _⟩ => ⟨S16x480x640, .f32⟩
  | .hbm, ⟨12, _⟩ => ⟨S16x480x640, .f32⟩
  | .hbm, ⟨13, _⟩ => ⟨S16x480x640, .f32⟩
  | .hbm, ⟨14, _⟩ => ⟨S16x480x640, .f32⟩
  | .hbm, ⟨15, _⟩ => ⟨S16x480x640, .f32⟩
  | .hbm, ⟨16, _⟩ => ⟨S16x1x480x640, .f32⟩
  | .hbm, ⟨17, _⟩ => ⟨S16x1x480x640, .f32⟩
  | .hbm, ⟨18, _⟩ => ⟨S16x1x480x640, .f32⟩
  | .hbm, ⟨19, _⟩ => ⟨S16x1x480x640, .f32⟩
  | .hbm, ⟨20, _⟩ => ⟨S16x1x480x640, .f32⟩
  | .hbm, ⟨21, _⟩ => ⟨S16x1x480x640, .f32⟩
  | .hbm, ⟨22, _⟩ => ⟨S16x1x480x640, .f32⟩
  | .hbm, ⟨23, _⟩ => ⟨S16x1x480x640, .f32⟩
  | .hbm, ⟨24, _⟩ => ⟨S16x1x480x640, .f32⟩
  | .hbm, ⟨25, _⟩ => ⟨S16x9x480x640, .f32⟩
  | .hbm, ⟨26, _⟩ => ⟨S16x480x640, .f32⟩
  | .hbm, ⟨27, _⟩ => ⟨S_, .i32⟩
  | .hbm, ⟨28, _⟩ => ⟨S1, .i32⟩
  | .hbm, ⟨29, _⟩ => ⟨S16x9x480x640, .f32⟩
  | .hbm, ⟨30, _⟩ => ⟨S16x9x480x640, .f32⟩
  | .hbm, ⟨31, _⟩ => ⟨S_, .f32⟩
  | .hbm, ⟨32, _⟩ => ⟨S16x480x640, .f32⟩
  | .hbm, ⟨33, _⟩ => ⟨S16x1x480x640, .f32⟩
  | _, _ => ⟨S16x9x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S16x1x480x640_S16x480x640 : S16x1x480x640.ShapeCasts S16x480x640
  pads_S16x480x640_S16x482x642_000_110_110 : S16x480x640.Pads (![0, 1, 1] : Fin 3 → Nat) ![0, 1, 1] ![0, 0, 0] S16x482x642
  h_S_ : 0 < S_.numel
  slices_S16x482x642_S16x480x640_0_0_0 : S16x482x642.Slices ![0, 0, 0] S16x480x640
  slices_S16x482x642_S16x480x640_0_0_1 : S16x482x642.Slices ![0, 0, 1] S16x480x640
  slices_S16x482x642_S16x480x640_0_0_2 : S16x482x642.Slices ![0, 0, 2] S16x480x640
  slices_S16x482x642_S16x480x640_0_1_0 : S16x482x642.Slices ![0, 1, 0] S16x480x640
  slices_S16x482x642_S16x480x640_0_1_1 : S16x482x642.Slices ![0, 1, 1] S16x480x640
  slices_S16x482x642_S16x480x640_0_1_2 : S16x482x642.Slices ![0, 1, 2] S16x480x640
  slices_S16x482x642_S16x480x640_0_2_0 : S16x482x642.Slices ![0, 2, 0] S16x480x640
  slices_S16x482x642_S16x480x640_0_2_1 : S16x482x642.Slices ![0, 2, 1] S16x480x640
  slices_S16x482x642_S16x480x640_0_2_2 : S16x482x642.Slices ![0, 2, 2] S16x480x640
  bcast_S16x480x640_S16x1x480x640_0_2_3 : S16x480x640.BroadcastsInDim S16x1x480x640 (![0, 2, 3] : Fin 3 → Fin S16x1x480x640.rank)
  concatenates_S16x1x480x640_S16x1x480x640_S16x1x480x640_S16x1x480x640_S16x1x480x640_S16x1x480x640_S16x1x480x640_S16x1x480x640_S16x1x480x640_S16x9x480x640_d1 : Shape.Concatenates [S16x1x480x640, S16x1x480x640, S16x1x480x640, S16x1x480x640, S16x1x480x640, S16x1x480x640, S16x1x480x640, S16x1x480x640, S16x1x480x640] S16x9x480x640 1
  bcast_S_S1 : S_.BroadcastsInDim S1 (![] : Fin 0 → Fin S1.rank)
  reducesTo_S16x9x480x640_S16x480x640_d1 : S16x9x480x640.ReducesTo [1] S16x480x640
  scatter_S16x9x480x640_S1_S16x480x640_012_1_1_0_wf : ScatterDims.WF S16x9x480x640 S1 S16x480x640 [0, 1, 2] [1] [1] 0

variable [Facts₀]

def scatter_S16x9x480x640_S1_S16x480x640_012_1_1_0 : ScatterDims S16x9x480x640 S1 S16x480x640 where
  updateWindowDims := [0, 1, 2]
  insertedWindowDims := [1]
  scatterDimsToOperandDims := [1]
  indexVectorDim := 0
  wf := scatter_S16x9x480x640_S1_S16x480x640_012_1_1_0_wf

class Facts : Prop extends Facts₀ where

variable [Facts]
-- ==== Proof.KernelPieces.lean ====
/-
  What one grid point leaves in the output block and in the carried scratch, for both control cases.

  The body first (at point 0 only) fills the 488 x 768 scratch with zeros, then stores the point's image
  block into the scratch at offset (1, 1), then reads the scratch back through the nine 480 x 640
  rectangles at offsets (dy, dx), dy and dx in {0, 1, 2}, multiplies each by a channel of the weights
  block (the centre rectangle replaced by the second image's block) and adds the nine products to 0.
  So both cases store ONE payload, a function of the scratch as it stands after the image store, of
  the weights block and of the second image's block; the cases differ only in what lay under the image
  store: the zero fill (point 0), or what the point before left (every other point).
-/
import proofs.«126622_j14929306321555_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Cspn.Kernel

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The image store: the point's image block, its two unit axes dropped, at offset (1, 1) of the scratch. -/
abbrev imgPiece (x1 : Vec F S1x1x480x640 .f32) : View.Piece (Elt F) S488x768 .f32 :=
  ⟨Rect.unit ![1, 1] S480x640.size inb_S488x768_S480x640_1_1, k0_pay3 x1⟩

/-- The zero fill of the whole scratch. -/
abbrev zeroPiece : View.Piece (Elt F) S488x768 .f32 :=
  ⟨Rect.unit ![0, 0] S488x768.size inb_S488x768_S488x768_0_0, k0_pay2 (F := F)⟩

/-- The payload the body stores to the output block, as a function of the scratch contents S it reads
    back (the scratch after the image store), the weights block x0 and the second image's block x2:
    the chain 0 + S[0:, 0:] * x0[0] + S[0:, 1:] * x0[1] + ... + x2 * x0[4] + ... + S[2:, 2:] * x0[8]. -/
def outPay (S : Vec F S488x768 .f32) (x0 : Vec F S1x9x480x640 .f32) (x2 : Vec F S1x1x480x640 .f32) :
    FVec F S1x1x480x640 .f32 :=
  k0_pay1
    (k0_pay5
      (k0_pay4
        (View.ld (Val := Elt F) S (Rect.unit ![0, 0] S480x640.size inb_S488x768_S480x640_0_0))
        (View.ld (Val := Elt F) x0 (Rect.unit ![0, 0, 0, 0] S1x1x480x640.size inb_S1x9x480x640_S1x1x480x640_0_0_0_0))
        (View.ld (Val := Elt F) S (Rect.unit ![0, 1] S480x640.size inb_S488x768_S480x640_0_1))
        (View.ld (Val := Elt F) x0 (Rect.unit ![0, 1, 0, 0] S1x1x480x640.size inb_S1x9x480x640_S1x1x480x640_0_1_0_0))
        (View.ld (Val := Elt F) S (Rect.unit ![0, 2] S480x640.size inb_S488x768_S480x640_0_2))
        (View.ld (Val := Elt F) x0 (Rect.unit ![0, 2, 0, 0] S1x1x480x640.size inb_S1x9x480x640_S1x1x480x640_0_2_0_0)))
      (View.ld (Val := Elt F) S (Rect.unit ![1, 0] S480x640.size inb_S488x768_S480x640_1_0))
      (View.ld (Val := Elt F) x0 (Rect.unit ![0, 3, 0, 0] S1x1x480x640.size inb_S1x9x480x640_S1x1x480x640_0_3_0_0))
      x2
      (View.ld (Val := Elt F) x0 (Rect.unit ![0, 4, 0, 0] S1x1x480x640.size inb_S1x9x480x640_S1x1x480x640_0_4_0_0))
      (View.ld (Val := Elt F) S (Rect.unit ![1, 2] S480x640.size inb_S488x768_S480x640_1_2))
      (View.ld (Val := Elt F) x0 (Rect.unit ![0, 5, 0, 0] S1x1x480x640.size inb_S1x9x480x640_S1x1x480x640_0_5_0_0))
      (View.ld (Val := Elt F) S (Rect.unit ![2, 0] S480x640.size inb_S488x768_S480x640_2_0))
      (View.ld (Val := Elt F) x0 (Rect.unit ![0, 6, 0, 0] S1x1x480x640.size inb_S1x9x480x640_S1x1x480x640_0_6_0_0))
      (View.ld (Val := Elt F) S (Rect.unit ![2, 1] S480x640.size inb_S488x768_S480x640_2_1))
      (View.ld (Val := Elt F) x0 (Rect.unit ![0, 7, 0, 0] S1x1x480x640.size inb_S1x9x480x640_S1x1x480x640_0_7_0_0)))
    (View.ld (Val := Elt F) S (Rect.unit ![2, 2] S480x640.size inb_S488x768_S480x640_2_2))
    (View.ld (Val := Elt F) x0 (Rect.unit ![0, 8, 0, 0] S1x1x480x640.size inb_S1x9x480x640_S1x1x480x640_0_8_0_0))

/-- The scratch after the image store over the zero fill (point 0), as the two stores' overlay. -/
abbrev scrA (x1 : Vec F S1x1x480x640 .f32) : Vec F S488x768 .f32 :=
  View.canon [imgPiece x1, zeroPiece]

/-- The scratch after the image store over what the point before left in it (every other point). -/
abbrev scrB (a5 : Memref sig .tc .vmem S488x768 .f32) (h5 : a5.IsWhole) (x1 : Vec F S1x1x480x640 .f32)
    (xs : Vec F S488x768 .f32) : Vec F S488x768 .f32 :=
  a5.view.read (Elt F) (a5.view.writes (Elt F) (h5.unread xs) [imgPiece x1])

/-- The zero fill covers the scratch, so the two stores do. -/
theorem coverA (w : (Rect.unit (s := S488x768) ![1, 1] S480x640.size inb_S488x768_S480x640_1_1).shape.Idx → Elt F .f32) (y : S488x768.Idx) :
    ∃ p ∈ [(⟨Rect.unit (s := S488x768) ![1, 1] S480x640.size inb_S488x768_S480x640_1_1, w⟩ : View.Piece (Elt F) S488x768 .f32), zeroPiece],
      y ∈ p.1.set :=
  ⟨zeroPiece, by simp, View.mem_set_unit_zero hz2 inb_S488x768_S488x768_0_0 y⟩

/-- Point 0: the output block is the payload over the scratch after the two stores. -/
theorem out_A (c : Dev nD) (i : grid0.Coords) (a1 : Memref sig .tc .vmem S1x9x480x640 .f32) (h1 : a1.IsWhole)
    (a2 : Memref sig .tc .vmem S1x1x480x640 .f32) (h2 : a2.IsWhole) (a3 : Memref sig .tc .vmem S1x1x480x640 .f32) (h3 : a3.IsWhole)
    (a4 : Memref sig .tc .vmem S1x1x480x640 .f32) (h4 : a4.IsWhole) (a5 : Memref sig .tc .vmem S488x768 .f32) (h5 : a5.IsWhole)
    (hc : cond0_0 i) (x0 : Vec F S1x9x480x640 .f32) (x1 : Vec F S1x1x480x640 .f32) (x2 : Vec F S1x1x480x640 .f32) :
    out0_A_3 c i a1 h1 a2 h2 a3 h3 a4 h4 a5 h5 hc x0 x1 x2 = outPay (scrA x1) x0 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz4]
  simp only [View.readAt_eq_ld, h1.read_unread, h2.read_unread, h3.read_unread, View.ld_unit_zero (S := S1x1x480x640) hz4,
    View.readCov_eq_canon_ld _ _ _ (coverA _)]
  rfl

/-- Point 0: the scratch is left as the two stores' overlay. -/
theorem sout_A (c : Dev nD) (i : grid0.Coords) (a1 : Memref sig .tc .vmem S1x9x480x640 .f32) (h1 : a1.IsWhole)
    (a2 : Memref sig .tc .vmem S1x1x480x640 .f32) (h2 : a2.IsWhole) (a3 : Memref sig .tc .vmem S1x1x480x640 .f32) (h3 : a3.IsWhole)
    (a4 : Memref sig .tc .vmem S1x1x480x640 .f32) (h4 : a4.IsWhole) (a5 : Memref sig .tc .vmem S488x768 .f32) (h5 : a5.IsWhole)
    (hc : cond0_0 i) (x0 : Vec F S1x9x480x640 .f32) (x1 : Vec F S1x1x480x640 .f32) (x2 : Vec F S1x1x480x640 .f32) :
    sout0_A_0 c i a1 h1 a2 h2 a3 h3 a4 h4 a5 h5 hc x0 x1 x2 = scrA x1 := by
  unfold sout0_A_0
  unfold kernelRun0_A
  dsimp only
  sl_unfold_words
  rw [View.read_writes_junk_eq_canon]
  simp only [View.readAt_eq_ld, h2.read_unread, View.ld_unit_zero (S := S1x1x480x640) hz4]

/-- Every other point: the output block is the payload over the scratch after the image store. -/
theorem out_B (c : Dev nD) (i : grid0.Coords) (a1 : Memref sig .tc .vmem S1x9x480x640 .f32) (h1 : a1.IsWhole)
    (a2 : Memref sig .tc .vmem S1x1x480x640 .f32) (h2 : a2.IsWhole) (a3 : Memref sig .tc .vmem S1x1x480x640 .f32) (h3 : a3.IsWhole)
    (a4 : Memref sig .tc .vmem S1x1x480x640 .f32) (h4 : a4.IsWhole) (a5 : Memref sig .tc .vmem S488x768 .f32) (h5 : a5.IsWhole)
    (hc : ¬cond0_0 i) (x0 : Vec F S1x9x480x640 .f32) (x1 : Vec F S1x1x480x640 .f32) (x2 : Vec F S1x1x480x640 .f32)
    (xs : Vec F S488x768 .f32) :
    out0_B_3 c i a1 h1 a2 h2 a3 h3 a4 h4 a5 h5 hc x0 x1 x2 xs = outPay (scrB a5 h5 x1 xs) x0 x2 := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz4]
  simp only [View.readAt_eq_ld, h1.read_unread, h2.read_unread, h3.read_unread, View.ld_unit_zero (S := S1x1x480x640) hz4]
  rfl

/-- Every other point: the scratch is left as the image store over what it held. -/
theorem sout_B (c : Dev nD) (i : grid0.Coords) (a1 : Memref sig .tc .vmem S1x9x480x640 .f32) (h1 : a1.IsWhole)
    (a2 : Memref sig .tc .vmem S1x1x480x640 .f32) (h2 : a2.IsWhole) (a3 : Memref sig .tc .vmem S1x1x480x640 .f32) (h3 : a3.IsWhole)
    (a4 : Memref sig .tc .vmem S1x1x480x640 .f32) (h4 : a4.IsWhole) (a5 : Memref sig .tc .vmem S488x768 .f32) (h5 : a5.IsWhole)
    (hc : ¬cond0_0 i) (x0 : Vec F S1x9x480x640 .f32) (x1 : Vec F S1x1x480x640 .f32) (x2 : Vec F S1x1x480x640 .f32)
    (xs : Vec F S488x768 .f32) :
    sout0_B_0 c i a1 h1 a2 h2 a3 h3 a4 h4 a5 h5 hc x0 x1 x2 xs = scrB a5 h5 x1 xs := by
  unfold sout0_B_0
  unfold kernelRun0_B
  dsimp only
  sl_unfold_words
  simp only [View.readAt_eq_ld, h2.read_unread, View.ld_unit_zero (S := S1x1x480x640) hz4]

end Cert.Cspn.Kernel

end
-- ==== Proof.LibShapeCast11.lean ====
/-
  Two leading unit axes dropped or added by a shape cast, read at an index. A `[1, 1, a, b]` array and an `[a, b]` array
  have the same row-major order: position (0, 0, i, j) of the first is position (i, j) of the second, both i · b + j. These
  are the rank-4 / rank-2 companions of the one-unit-axis forms (`shapeCast_1ab_ab_apply`, `shapeCast_ab_1ab_apply`), for
  any extents a and b, with both indices written by coordinates.
-/
import Idealize.ShloMosaic.Lib.Pipeline.Value
import Idealize.ShloMosaic.Lib.ValueIdx

namespace Cert.LibShapeCast11

open Idealize.ShloMosaic Idealize.ShloMosaic.ValueIdx Idealize.ShloMosaic.Pipeline

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Cert.LibShapeCast11
-- ==== Proof.KernelIndex.lean ====
/-
  The pieces of one grid point read entry by entry, over the extended reals.

  The image store's payload at (y, x) is the image block's entry (0, 0, y, x). A load through the
  480 x 640 rectangle at offset (dy, dx) of the scratch reads the scratch at (y + dy, x + dx); a
  load of channel k of the weights block reads it at (0, k, y, x). The scratch after the image
  store holds, at (r, c), the image block's entry (0, 0, r - 1, c - 1) for 1 ≤ r ≤ 480 and
  1 ≤ c ≤ 640, and elsewhere what lay under the store. So the payload's entry (0, 0, y, x) is the
  chain of nine products added to 0.
-/
import proofs.«126622_j14929306321555_1_alg».proof.Proof.KernelPieces
import proofs.«126622_j14929306321555_1_alg».proof.Proof.LibShapeCast11
import Idealize.ShloMosaic.Lib.WritesUnit
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.Cspn.Kernel

open Cert.KernelIdeal Cert.KernelIdeal.Gen Cert.LibShapeCast11

variable {F : FTy → Type} [FloatOps F]

/-- The image store's payload at (y, x): the image block's entry (0, 0, y, x). -/
theorem pay3_apply (x1 : Vec F S1x1x480x640 .f32) (y : Fin 480) (x : Fin 640) :
    k0_pay3 x1 (ix2 y x) = x1 (ix4 (0 : Fin 1) (0 : Fin 1) y x) := by
  unfold k0_pay3
  rw [shapeCast_self]
  exact shapeCast_11ab_ab_apply x1 _ y x

/-- The zero fill's payload is the zero word at every entry. -/
theorem pay2_apply (i : S488x768.Idx) : k0_pay2 (F := F) i = Scalar.ofBits .f32 0x00000000#32 := by
  unfold k0_pay2
  rw [shapeCast_self]
  rfl

/-- A load through the 480 x 640 rectangle at offset (dy, dx) of a 488 x 768 array reads it at
    (y + dy, x + dx). -/
theorem ld_scr (S : Vec F S488x768 .f32) (dy dx : ℕ)
    (inb : ∀ a, (![dy, dx] : Fin 2 → ℕ) a + S480x640.size a ≤ S488x768.size a) (y : Fin 480) (x : Fin 640) :
    View.ld (Val := Elt F) S (Rect.unit (s := S488x768) ![dy, dx] S480x640.size inb) (ix2 y x)
      = S (ix2 (⟨y.val + dy, by have h : dy + 480 ≤ 488 := inb 0; omega⟩ : Fin 488)
               (⟨x.val + dx, by have h : dx + 640 ≤ 768 := inb 1; omega⟩ : Fin 768)) :=
  congrArg S (funext fun a => Fin.ext (by
    match a with
    | ⟨0, _⟩ => show dy + 1 * y.val = y.val + dy; omega
    | ⟨1, _⟩ => show dx + 1 * x.val = x.val + dx; omega))

/-- A load of channel k of the weights block reads it at (0, k, y, x). -/
theorem ld_w (x0 : Vec F S1x9x480x640 .f32) (k : ℕ)
    (inb : ∀ a, (![0, k, 0, 0] : Fin 4 → ℕ) a + S1x1x480x640.size a ≤ S1x9x480x640.size a) (y : Fin 480) (x : Fin 640) :
    View.ld (Val := Elt F) x0 (Rect.unit (s := S1x9x480x640) ![0, k, 0, 0] S1x1x480x640.size inb)
        (ix4 (0 : Fin 1) (0 : Fin 1) y x)
      = x0 (ix4 (0 : Fin 1) (⟨k, by have h : k + 1 ≤ 9 := inb 1; omega⟩ : Fin 9) y x) :=
  congrArg x0 (funext fun a => Fin.ext (by
    match a with
    | ⟨0, _⟩ => rfl
    | ⟨1, _⟩ => show k + 1 * 0 = k; omega
    | ⟨2, _⟩ => show 0 + 1 * y.val = y.val; omega
    | ⟨3, _⟩ => show 0 + 1 * x.val = x.val; omega))

/-- Newest wins for the image store: under its rectangle, rows 1 to 480 and columns 1 to 640, the
    scratch reads the store's payload at (r - 1, c - 1). -/
theorem read_img_inside {κ : Kind} {sp : Space} {sg : RefSig} (v : View sg κ sp S488x768 .f32) (f : v.ty.Contents (Elt F))
    (w : (Rect.unit (s := S488x768) ![1, 1] S480x640.size inb_S488x768_S480x640_1_1).shape.Idx → Elt F .f32)
    (L : List (View.Piece (Elt F) S488x768 .f32)) (r : Fin 488) (c : Fin 768)
    (hr : 1 ≤ r.val ∧ r.val ≤ 480) (hc : 1 ≤ c.val ∧ c.val ≤ 640) :
    v.read (Elt F) (v.writes (Elt F) f
        ((⟨Rect.unit (s := S488x768) ![1, 1] S480x640.size inb_S488x768_S480x640_1_1, w⟩ : View.Piece (Elt F) S488x768 .f32) :: L))
        (ix2 r c)
      = w (ix2 (⟨r.val - 1, by omega⟩ : Fin 480) (⟨c.val - 1, by omega⟩ : Fin 640)) :=
  View.read_writes_cons_unit_of_mem v f inb_S488x768_S480x640_1_1 w L (ix2 r c)
    (ix2 (⟨r.val - 1, by omega⟩ : Fin 480) (⟨c.val - 1, by omega⟩ : Fin 640)) rfl
    (fun a => by
      match a with
      | ⟨0, _⟩ => show r.val = 1 + (r.val - 1); omega
      | ⟨1, _⟩ => show c.val = 1 + (c.val - 1); omega)

/-- Off the image store's rectangle the scratch reads what the earlier stores left. -/
theorem read_img_outside {κ : Kind} {sp : Space} {sg : RefSig} (v : View sg κ sp S488x768 .f32) (f : v.ty.Contents (Elt F))
    (w : (Rect.unit (s := S488x768) ![1, 1] S480x640.size inb_S488x768_S480x640_1_1).shape.Idx → Elt F .f32)
    (L : List (View.Piece (Elt F) S488x768 .f32)) (r : Fin 488) (c : Fin 768)
    (h : ¬((1 ≤ r.val ∧ r.val ≤ 480) ∧ (1 ≤ c.val ∧ c.val ≤ 640))) :
    v.read (Elt F) (v.writes (Elt F) f
        ((⟨Rect.unit (s := S488x768) ![1, 1] S480x640.size inb_S488x768_S480x640_1_1, w⟩ : View.Piece (Elt F) S488x768 .f32) :: L))
        (ix2 r c)
      = v.read (Elt F) (v.writes (Elt F) f L) (ix2 r c) := by
  by_cases hr : 1 ≤ r.val ∧ r.val ≤ 480
  · have hc : ¬(1 ≤ c.val ∧ c.val ≤ 640) := fun hc => h ⟨hr, hc⟩
    exact View.read_writes_cons_unit_of_not_mem v f inb_S488x768_S480x640_1_1 w L (ix2 r c) rfl (1 : Fin 2)
      (by show c.val < 1 ∨ 1 + 640 ≤ c.val; omega)
  · exact View.read_writes_cons_unit_of_not_mem v f inb_S488x768_S480x640_1_1 w L (ix2 r c) rfl (0 : Fin 2)
      (by show r.val < 1 ∨ 1 + 480 ≤ r.val; omega)

/-- The image block framed over prior scratch contents: entry (0, 0, r - 1, c - 1) of the block under
    the store's rectangle, the prior contents elsewhere. -/
def framedOver (prev : Vec F S488x768 .f32) (x1 : Vec F S1x1x480x640 .f32) : Vec F S488x768 .f32 :=
  fun i => if h : (1 ≤ (i 0).val ∧ (i 0).val ≤ 480) ∧ (1 ≤ (i 1).val ∧ (i 1).val ≤ 640) then
    x1 (ix4 (0 : Fin 1) (0 : Fin 1) (⟨(i 0).val - 1, by omega⟩ : Fin 480) (⟨(i 1).val - 1, by omega⟩ : Fin 640))
  else prev i

/-- Every other point: the scratch after the image store is the image block framed over what the
    point before left. -/
theorem scrB_eq (a5 : Memref sig .tc .vmem S488x768 .f32) (h5 : a5.IsWhole) (x1 : Vec F S1x1x480x640 .f32)
    (xs : Vec F S488x768 .f32) : scrB a5 h5 x1 xs = framedOver xs x1 := by
  funext i
  obtain ⟨r, c, rfl⟩ : ∃ (r : Fin 488) (c : Fin 768), i = ix2 r c := ⟨i 0, i 1, eq_ix2 i⟩
  unfold framedOver
  by_cases h : (1 ≤ r.val ∧ r.val ≤ 480) ∧ (1 ≤ c.val ∧ c.val ≤ 640)
  · rw [dif_pos (show (1 ≤ ((ix2 r c : S488x768.Idx) 0).val ∧ ((ix2 r c : S488x768.Idx) 0).val ≤ 480) ∧ (1 ≤ ((ix2 r c : S488x768.Idx) 1).val ∧ ((ix2 r c : S488x768.Idx) 1).val ≤ 640) from h)]
    exact (read_img_inside a5.view (h5.unread xs) (k0_pay3 x1) [] r c h.1 h.2).trans (pay3_apply x1 _ _)
  · rw [dif_neg (show ¬((1 ≤ ((ix2 r c : S488x768.Idx) 0).val ∧ ((ix2 r c : S488x768.Idx) 0).val ≤ 480) ∧ (1 ≤ ((ix2 r c : S488x768.Idx) 1).val ∧ ((ix2 r c : S488x768.Idx) 1).val ≤ 640)) from h)]
    refine (read_img_outside a5.view (h5.unread xs) (k0_pay3 x1) [] r c h).trans ?_
    rw [View.writes_nil, h5.read_unread]

/-- Point 0: the scratch after the two stores is the image block framed over zeros. -/
theorem scrA_eq (x1 : Vec F S1x1x480x640 .f32) :
    scrA x1 = framedOver (fun _ => Scalar.ofBits .f32 0x00000000#32) x1 := by
  unfold scrA
  rw [← View.read_writes_junk_eq_canon VS0_0]
  funext i
  obtain ⟨r, c, rfl⟩ : ∃ (r : Fin 488) (c : Fin 768), i = ix2 r c := ⟨i 0, i 1, eq_ix2 i⟩
  unfold framedOver
  by_cases h : (1 ≤ r.val ∧ r.val ≤ 480) ∧ (1 ≤ c.val ∧ c.val ≤ 640)
  · rw [dif_pos (show (1 ≤ ((ix2 r c : S488x768.Idx) 0).val ∧ ((ix2 r c : S488x768.Idx) 0).val ≤ 480) ∧ (1 ≤ ((ix2 r c : S488x768.Idx) 1).val ∧ ((ix2 r c : S488x768.Idx) 1).val ≤ 640) from h)]
    exact (read_img_inside VS0_0 VS0_0.junk (k0_pay3 x1) [zeroPiece] r c h.1 h.2).trans (pay3_apply x1 _ _)
  · rw [dif_neg (show ¬((1 ≤ ((ix2 r c : S488x768.Idx) 0).val ∧ ((ix2 r c : S488x768.Idx) 0).val ≤ 480) ∧ (1 ≤ ((ix2 r c : S488x768.Idx) 1).val ∧ ((ix2 r c : S488x768.Idx) 1).val ≤ 640)) from h)]
    refine (read_img_outside VS0_0 VS0_0.junk (k0_pay3 x1) [zeroPiece] r c h).trans ?_
    rw [View.read_writes_junk_eq_canon, View.canon_unit_zero hz2]
    exact pay2_apply _

end Cert.Cspn.Kernel

end
-- ==== Proof.KernelScratch.lean ====
/-
  The carried scratch and the output block at every grid point.

  After point 0 the scratch is the point's image block framed over zeros: the zero fill, then the
  image store. After any later point it is that point's image block framed over what the point
  before left; framing over a framed scratch is framing over what lay under it, because both
  stores cover the same rectangle, and what lay under the first is zero on the ring. So, by
  induction on the point, the scratch after every point is the point's image block framed over
  zeros, and the output block of every point is the payload over exactly that scratch.
-/
import proofs.«126622_j14929306321555_1_alg».proof.Proof.KernelIndex
import proofs.«126622_j14929306321555_1_alg».proof.Proof.Gen.KernelIdeal.Value

set_option maxRecDepth 16384

noncomputable section

open Idealize.ShloMosaic Idealize.ShloMosaic.TcCoe Idealize.SL.Sem Idealize.ShloMosaic.ValueIdx

namespace Cert.Cspn.Kernel

open Cert.KernelIdeal Cert.KernelIdeal.Gen

variable {F : FTy → Type} [FloatOps F]
variable (m : (ℓ : Loc nD τ sig) → Buf (Elt F) ℓ)

/-- The weights block, the image block and the second image's block of grid point t. -/
abbrev wblk (c : Dev nD) (t : Fin cfg0.N) : Vec F S1x9x480x640 .f32 := iblk m c 0 t
abbrev xblk (c : Dev nD) (t : Fin cfg0.N) : Vec F S1x1x480x640 .f32 := iblk m c 1 t
abbrev yblk (c : Dev nD) (t : Fin cfg0.N) : Vec F S1x1x480x640 .f32 := iblk m c 2 t

/-- The all-zero scratch. -/
abbrev zeroScr : Vec F S488x768 .f32 := fun _ => Scalar.ofBits .f32 0x00000000#32

/-- Framing over a framed scratch is framing over what lay under it. -/
theorem framedOver_idem (p : Vec F S488x768 .f32) (x' x1 : Vec F S1x1x480x640 .f32) :
    framedOver (framedOver p x') x1 = framedOver p x1 := by
  funext i
  by_cases h : (1 ≤ (i 0).val ∧ (i 0).val ≤ 480) ∧ (1 ≤ (i 1).val ∧ (i 1).val ≤ 640)
  · simp only [framedOver, dif_pos h]
  · simp only [framedOver, dif_neg h]

/-- THE INVARIANT: after every point the scratch is that point's image block framed over zeros. -/
theorem scratch_after (c : Dev nD) :
    ∀ (n : ℕ) (h : n < cfg0.N), (outsAt0 m c n h).2 = framedOver zeroScr (xblk m c ⟨n, h⟩)
  | 0, h => by
    rw [outsAt0_A m c ⟨0, h⟩ rfl]
    dsimp only
    refine (sout_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) _ (wblk m c ⟨0, h⟩) (xblk m c ⟨0, h⟩) (yblk m c ⟨0, h⟩)).trans ?_
    exact scrA_eq _
  | n + 1, h => by
    have hN : cfg0.N = 16 := N_0
    have hB : ¬(⟨n + 1, h⟩ : Fin cfg0.N).val % 16 = 0 := by dsimp only; omega
    rw [outsAt0_B m c ⟨n + 1, h⟩ hB]
    dsimp only
    refine (sout_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) _ (wblk m c ⟨n + 1, h⟩) (xblk m c ⟨n + 1, h⟩) (yblk m c ⟨n + 1, h⟩)
      (outsAt0 m c n (Nat.lt_of_succ_lt h)).2).trans ?_
    rw [scrB_eq, scratch_after c n (Nat.lt_of_succ_lt h), framedOver_idem]

/-- The output block of every point: the payload over the point's image block framed over zeros. -/
theorem out_at (c : Dev nD) (t : Fin cfg0.N) :
    (outsAt0 m c t.val t.isLt).1 = outPay (framedOver zeroScr (xblk m c t)) (wblk m c t) (yblk m c t) := by
  by_cases h0 : t.val % 16 = 0
  · rw [outsAt0_A m c t h0]
    dsimp only
    refine (out_A c (grid0.coords t) (ms0_0 t) (hs0_0 t) (ms0_1 t) (hs0_1 t) (ms0_2 t) (hs0_2 t) (ms0_3 t) (hs0_3 t) scM0_0 (Memref.isWhole_whole _) _ (wblk m c t) (xblk m c t) (yblk m c t)).trans ?_
    rw [scrA_eq]
  · rw [outsAt0_B m c t h0]
    dsimp only
    refine (out_B c (grid0.coords t) (ms0_0 t) (hs0_0 t) (ms0_1 t) (hs0_1 t) (ms0_2 t) (hs0_2 t) (ms0_3 t) (hs0_3 t) scM0_0 (Memref.isWhole_whole _) _ (wblk m c t) (xblk m c t) (yblk m c t)
      (outsAt0 m c (t.val - 1) (Nat.lt_of_le_of_lt (Nat.sub_le _ _) t.isLt)).2).trans ?_
    rw [scrB_eq, scratch_after m c (t.val - 1) (Nat.lt_of_le_of_lt (Nat.sub_le _ _) t.isLt), framedOver_idem]

end Cert.Cspn.Kernel

end
-- ==== Proof.Spec.lean ====
/-
  The nine-tap weighted sum of a framed image: the function both programs compute.

  An image X[b] of 480 x 640 entries is framed by one ring of zeros (a 482 x 642 frame whose entry
  (r, c) is X[b, r-1, c-1] inside and 0 on the ring). For the output entry (b, y, x) the nine taps
  are the frame's entries (y + dy, x + dx), dy and dx in {0, 1, 2}, numbered k = 3 dy + dx, except
  the centre tap k = 4, which is replaced by the entry (b, y, x) of a second image X0. The result is
  the sum over k of tap k times the weight K[b, k, y, x]. Over the extended reals addition is
  commutative and associative, so a chain that adds the nine products one after the other to 0 is
  that sum, whatever the grouping.
-/
import Idealize.ShloMosaic.PureOps.Ideal
import Idealize.ShloMosaic.Lib.ValueIdx
import Mathlib.Algebra.BigOperators.Fin

noncomputable section

open Idealize.ShloMosaic Idealize.ShloMosaic.ValueIdx

namespace Cert.Cspn

/-- The weights' shape, [16, 9, 480, 640], and the images' and the result's, [16, 1, 480, 640]. -/
abbrev SW : Shape := ⟨4, ![16, 9, 480, 640]⟩
abbrev SI : Shape := ⟨4, ![16, 1, 480, 640]⟩

/-- Entry (r, c) of image b framed by one ring of zeros: X[b, r-1, c-1] for 1 ≤ r ≤ 480 and
    1 ≤ c ≤ 640, and 0 elsewhere. -/
def framed (X : SI.Idx → EReal) (b : Fin 16) (r c : ℕ) : EReal :=
  if h : (1 ≤ r ∧ r ≤ 480) ∧ (1 ≤ c ∧ c ≤ 640) then
    X (ix4 b (0 : Fin 1) (⟨r - 1, by omega⟩ : Fin 480) (⟨c - 1, by omega⟩ : Fin 640))
  else 0

theorem framed_inside (X : SI.Idx → EReal) (b : Fin 16) (r c : ℕ) (hr : 1 ≤ r ∧ r ≤ 480) (hc : 1 ≤ c ∧ c ≤ 640) :
    framed X b r c = X (ix4 b (0 : Fin 1) (⟨r - 1, by omega⟩ : Fin 480) (⟨c - 1, by omega⟩ : Fin 640)) :=
  dif_pos ⟨hr, hc⟩

theorem framed_ring (X : SI.Idx → EReal) (b : Fin 16) (r c : ℕ) (h : ¬((1 ≤ r ∧ r ≤ 480) ∧ (1 ≤ c ∧ c ≤ 640))) :
    framed X b r c = 0 :=
  dif_neg h

/-- Tap k of the output entry (b, y, x): the frame's entry (y + dy, x + dx) with k = 3 dy + dx, the
    centre tap replaced by X0[b, y, x]. -/
def tap (X X0 : SI.Idx → EReal) (b : Fin 16) (y : Fin 480) (x : Fin 640) : Fin 9 → EReal
  | ⟨0, _⟩ => framed X b y.val x.val
  | ⟨1, _⟩ => framed X b y.val (x.val + 1)
  | ⟨2, _⟩ => framed X b y.val (x.val + 2)
  | ⟨3, _⟩ => framed X b (y.val + 1) x.val
  | ⟨4, _⟩ => X0 (ix4 b (0 : Fin 1) y x)
  | ⟨5, _⟩ => framed X b (y.val + 1) (x.val + 2)
  | ⟨6, _⟩ => framed X b (y.val + 2) x.val
  | ⟨7, _⟩ => framed X b (y.val + 2) (x.val + 1)
  | ⟨8, _⟩ => framed X b (y.val + 2) (x.val + 2)

/-- The result's entry (b, y, x): the sum over the nine taps of tap times weight. -/
def Gat (K : SW.Idx → EReal) (X X0 : SI.Idx → EReal) (b : Fin 16) (y : Fin 480) (x : Fin 640) : EReal :=
  ∑ k : Fin 9, tap X X0 b y x k * K (ix4 b k y x)

/-- The result array, [16, 1, 480, 640]. -/
def G (K : SW.Idx → EReal) (X X0 : SI.Idx → EReal) : SI.Idx → EReal :=
  fun i => Gat K X X0 (i 0) (i 2) (i 3)

theorem G_apply (K : SW.Idx → EReal) (X X0 : SI.Idx → EReal) (b : Fin 16) (z : Fin 1) (y : Fin 480) (x : Fin 640) :
    G K X X0 (ix4 b z y x) = Gat K X X0 b y x := rfl

/-- A sum over nine terms is the chain that adds them, first to last, to 0. -/
theorem sum_nine {M : Type*} [AddCommMonoid M] (f : Fin 9 → M) :
    ∑ k : Fin 9, f k = 0 + f 0 + f 1 + f 2 + f 3 + f 4 + f 5 + f 6 + f 7 + f 8 := by
  simp only [Fin.sum_univ_castSucc, Fin.sum_univ_zero]
  rfl

/-- The result's entry as the chain of the nine products added to 0, taps spelt out. -/
theorem Gat_chain (K : SW.Idx → EReal) (X X0 : SI.Idx → EReal) (b : Fin 16) (y : Fin 480) (x : Fin 640) :
    Gat K X X0 b y x =
      0 + framed X b y.val x.val * K (ix4 b (0 : Fin 9) y x)
        + framed X b y.val (x.val + 1) * K (ix4 b (1 : Fin 9) y x)
        + framed X b y.val (x.val + 2) * K (ix4 b (2 : Fin 9) y x)
        + framed X b (y.val + 1) x.val * K (ix4 b (3 : Fin 9) y x)
        + X0 (ix4 b (0 : Fin 1) y x) * K (ix4 b (4 : Fin 9) y x)
        + framed X b (y.val + 1) (x.val + 2) * K (ix4 b (5 : Fin 9) y x)
        + framed X b (y.val + 2) x.val * K (ix4 b (6 : Fin 9) y x)
        + framed X b (y.val + 2) (x.val + 1) * K (ix4 b (7 : Fin 9) y x)
        + framed X b (y.val + 2) (x.val + 2) * K (ix4 b (8 : Fin 9) y x) := by
  unfold Gat
  rw [sum_nine]
  rfl

end Cert.Cspn

end
-- ==== Proof.KernelChain.lean ====
/-
  The payload's entry as the nine-term chain, and the chain as the specification's entry.

  Entry (0, 0, y, x) of the stored payload is
    0 + S[y, x] w0 + S[y, x+1] w1 + S[y, x+2] w2 + S[y+1, x] w3 + z w4 + S[y+1, x+2] w5
      + S[y+2, x] w6 + S[y+2, x+1] w7 + S[y+2, x+2] w8,
  S the scratch the body reads back, wk = the weights block's entry (0, k, y, x), z the second
  image block's entry (0, 0, y, x). When S is the image block framed over zeros, S[r, c] is the
  frame's entry (r, c) of the specification, and the chain is the specification's sum of nine
  products.
-/
import proofs.«126622_j14929306321555_1_alg».proof.Proof.KernelIndex
import proofs.«126622_j14929306321555_1_alg».proof.Proof.Spec

set_option maxRecDepth 16384

noncomputable section

open Idealize.ShloMosaic Idealize.ShloMosaic.TcCoe Idealize.SL.Sem Idealize.ShloMosaic.ValueIdx

namespace Cert.Cspn.Kernel

open Cert.KernelIdeal Cert.KernelIdeal.Gen Cert.LibShapeCast11

/-- The zero word denotes the extended real 0. -/
theorem zeroWord : (Scalar.ofBits (F := Ideal) .f32 0x00000000#32 : EReal) = 0 :=
  (rfl : Scalar.ofBits (F := Ideal) .f32 0x00000000#32 = Ideal.ofBits .f32 0x00000000#32).trans Ideal.ofBits_zero_f32

/-- The payload's entry (0, 0, y, x): the nine products added, first to last, to 0. -/
theorem outPay_apply (S : Vec Ideal S488x768 .f32) (x0 : Vec Ideal S1x9x480x640 .f32) (x2 : Vec Ideal S1x1x480x640 .f32)
    (y : Fin 480) (x : Fin 640) :
    outPay (F := Ideal) S x0 x2 (ix4 (0 : Fin 1) (0 : Fin 1) y x) =
      0 + S (ix2 (⟨y.val + 0, by omega⟩ : Fin 488) (⟨x.val + 0, by omega⟩ : Fin 768)) * x0 (ix4 (0 : Fin 1) (⟨0, by omega⟩ : Fin 9) y x)
        + S (ix2 (⟨y.val + 0, by omega⟩ : Fin 488) (⟨x.val + 1, by omega⟩ : Fin 768)) * x0 (ix4 (0 : Fin 1) (⟨1, by omega⟩ : Fin 9) y x)
        + S (ix2 (⟨y.val + 0, by omega⟩ : Fin 488) (⟨x.val + 2, by omega⟩ : Fin 768)) * x0 (ix4 (0 : Fin 1) (⟨2, by omega⟩ : Fin 9) y x)
        + S (ix2 (⟨y.val + 1, by omega⟩ : Fin 488) (⟨x.val + 0, by omega⟩ : Fin 768)) * x0 (ix4 (0 : Fin 1) (⟨3, by omega⟩ : Fin 9) y x)
        + x2 (ix4 (0 : Fin 1) (0 : Fin 1) y x) * x0 (ix4 (0 : Fin 1) (⟨4, by omega⟩ : Fin 9) y x)
        + S (ix2 (⟨y.val + 1, by omega⟩ : Fin 488) (⟨x.val + 2, by omega⟩ : Fin 768)) * x0 (ix4 (0 : Fin 1) (⟨5, by omega⟩ : Fin 9) y x)
        + S (ix2 (⟨y.val + 2, by omega⟩ : Fin 488) (⟨x.val + 0, by omega⟩ : Fin 768)) * x0 (ix4 (0 : Fin 1) (⟨6, by omega⟩ : Fin 9) y x)
        + S (ix2 (⟨y.val + 2, by omega⟩ : Fin 488) (⟨x.val + 1, by omega⟩ : Fin 768)) * x0 (ix4 (0 : Fin 1) (⟨7, by omega⟩ : Fin 9) y x)
        + S (ix2 (⟨y.val + 2, by omega⟩ : Fin 488) (⟨x.val + 2, by omega⟩ : Fin 768)) * x0 (ix4 (0 : Fin 1) (⟨8, by omega⟩ : Fin 9) y x) := by
  unfold outPay k0_pay1 k0_pay5 k0_pay4
  simp only [shapeCast_ab_11ab_apply, shapeCast_11ab_ab_apply, ValueIdx.addf_apply, ValueIdx.mulf_apply,
    ValueIdx.broadcast_apply, zeroWord]
  rw [ld_scr S 0 0 inb_S488x768_S480x640_0_0 y x,
    ld_scr S 0 1 inb_S488x768_S480x640_0_1 y x,
    ld_scr S 0 2 inb_S488x768_S480x640_0_2 y x,
    ld_scr S 1 0 inb_S488x768_S480x640_1_0 y x,
    ld_scr S 1 2 inb_S488x768_S480x640_1_2 y x,
    ld_scr S 2 0 inb_S488x768_S480x640_2_0 y x,
    ld_scr S 2 1 inb_S488x768_S480x640_2_1 y x,
    ld_scr S 2 2 inb_S488x768_S480x640_2_2 y x,
    ld_w x0 0 inb_S1x9x480x640_S1x1x480x640_0_0_0_0 y x,
    ld_w x0 1 inb_S1x9x480x640_S1x1x480x640_0_1_0_0 y x,
    ld_w x0 2 inb_S1x9x480x640_S1x1x480x640_0_2_0_0 y x,
    ld_w x0 3 inb_S1x9x480x640_S1x1x480x640_0_3_0_0 y x,
    ld_w x0 4 inb_S1x9x480x640_S1x1x480x640_0_4_0_0 y x,
    ld_w x0 5 inb_S1x9x480x640_S1x1x480x640_0_5_0_0 y x,
    ld_w x0 6 inb_S1x9x480x640_S1x1x480x640_0_6_0_0 y x,
    ld_w x0 7 inb_S1x9x480x640_S1x1x480x640_0_7_0_0 y x,
    ld_w x0 8 inb_S1x9x480x640_S1x1x480x640_0_8_0_0 y x]

end Cert.Cspn.Kernel

end
-- ==== Proof.KernelValue.lean ====
/-
  The kernel's result array is the nine-tap weighted sum of the framed image.

  At grid point t every window's block is batch slab t of its array: the weights block is
  K[t], the image block X[t], the second image's block X0[t], and the output block is written back
  to slab t of the result. The payload over the image block framed over zeros is therefore, entry
  by entry, the specification at batch t; the sixteen slabs cover the result array, so the array
  ends holding the specification of the argument arrays.
-/
import proofs.«126622_j14929306321555_1_alg».proof.Proof.KernelScratch
import proofs.«126622_j14929306321555_1_alg».proof.Proof.KernelChain

set_option maxRecDepth 16384

noncomputable section

open Idealize.ShloMosaic Idealize.ShloMosaic.TcCoe Idealize.SL.Sem Idealize.ShloMosaic.ValueIdx
open Idealize.ShloMosaic.Pipeline (Dat)

namespace Cert.Cspn.Kernel

open Cert.KernelIdeal Cert.KernelIdeal.Gen

/-- The index maps, decided over the grid: at point t every window's block index is (t, 0, 0, 0). -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

theorem lt16 (t : Fin cfg0.N) : t.val < 16 := lt_of_lt_of_eq t.isLt N_0

/-- The batch number of grid point t. -/
abbrev batch (t : Fin cfg0.N) : Fin 16 := ⟨t.val, lt16 t⟩

section Blocks
variable {F : FTy → Type} [FloatOps F]
variable (m : (ℓ : Loc nD τ sig) → Buf (Elt F) ℓ)

/-- The weights block of point t is slab t of the weights. -/
theorem wblk_apply (c : Dev nD) (t : Fin cfg0.N) (k : Fin 9) (y : Fin 480) (x : Fin 640) :
    wblk m c t (ix4 (0 : Fin 1) k y x) = V m c main_arg0 (ix4 (batch t) k y x) := by
  obtain ⟨⟨e0, e1, e2, e3⟩, -⟩ := idx_facts t
  show V m c main_arg0 (((cfg0.win 0).blk t).view.emb (ix4 (0 : Fin 1) k y x)) = _
  refine congrArg (V m c main_arg0) (funext fun a => Fin.ext ?_)
  match a with
  | ⟨0, _⟩ => show win0_0.index t (0 : Fin 4) * 1 + 1 * (0 : ℕ) = t.val; omega
  | ⟨1, _⟩ => show win0_0.index t (1 : Fin 4) * 9 + 1 * k.val = k.val; omega
  | ⟨2, _⟩ => show win0_0.index t (2 : Fin 4) * 480 + 1 * y.val = y.val; omega
  | ⟨3, _⟩ => show win0_0.index t (3 : Fin 4) * 640 + 1 * x.val = x.val; omega

/-- The image block of point t is slab t of the image. -/
theorem xblk_apply (c : Dev nD) (t : Fin cfg0.N) (y : Fin 480) (x : Fin 640) :
    xblk m c t (ix4 (0 : Fin 1) (0 : Fin 1) y x) = V m c main_arg1 (ix4 (batch t) (0 : Fin 1) y x) := by
  obtain ⟨-, ⟨e0, e1, e2, e3⟩, -⟩ := idx_facts t
  show V m c main_arg1 (((cfg0.win 1).blk t).view.emb (ix4 (0 : Fin 1) (0 : Fin 1) y x)) = _
  refine congrArg (V m c main_arg1) (funext fun a => Fin.ext ?_)
  match a with
  | ⟨0, _⟩ => show win0_1.index t (0 : Fin 4) * 1 + 1 * (0 : ℕ) = t.val; omega
  | ⟨1, _⟩ => show win0_1.index t (1 : Fin 4) * 1 + 1 * (0 : ℕ) = 0; omega
  | ⟨2, _⟩ => show win0_1.index t (2 : Fin 4) * 480 + 1 * y.val = y.val; omega
  | ⟨3, _⟩ => show win0_1.index t (3 : Fin 4) * 640 + 1 * x.val = x.val; omega

/-- The second image's block of point t is slab t of the second image. -/
theorem yblk_apply (c : Dev nD) (t : Fin cfg0.N) (y : Fin 480) (x : Fin 640) :
    yblk m c t (ix4 (0 : Fin 1) (0 : Fin 1) y x) = V m c main_arg2 (ix4 (batch t) (0 : Fin 1) y x) := by
  obtain ⟨-, -, ⟨e0, e1, e2, e3⟩, -⟩ := idx_facts t
  show V m c main_arg2 (((cfg0.win 2).blk t).view.emb (ix4 (0 : Fin 1) (0 : Fin 1) y x)) = _
  refine congrArg (V m c main_arg2) (funext fun a => Fin.ext ?_)
  match a with
  | ⟨0, _⟩ => show win0_2.index t (0 : Fin 4) * 1 + 1 * (0 : ℕ) = t.val; omega
  | ⟨1, _⟩ => show win0_2.index t (1 : Fin 4) * 1 + 1 * (0 : ℕ) = 0; omega
  | ⟨2, _⟩ => show win0_2.index t (2 : Fin 4) * 480 + 1 * y.val = y.val; omega
  | ⟨3, _⟩ => show win0_2.index t (3 : Fin 4) * 640 + 1 * x.val = x.val; omega

/-- Block t of an array of the result's shape, read through the output window: slab t. -/
theorem blk_read (c : Dev nD) (t : Fin cfg0.N) (A : S16x1x480x640.Idx → Elt F .f32) (y : Fin 480) (x : Fin 640) :
    ((cfg0.win 3).blk t).view.read (Elt F) A (ix4 (0 : Fin 1) (0 : Fin 1) y x) = A (ix4 (batch t) (0 : Fin 1) y x) := by
  obtain ⟨-, -, -, ⟨e0, e1, e2, e3⟩⟩ := idx_facts t
  show A (((cfg0.win 3).blk t).view.emb (ix4 (0 : Fin 1) (0 : Fin 1) y x)) = _
  refine congrArg A (funext fun a => Fin.ext ?_)
  match a with
  | ⟨0, _⟩ => show win0_3.index t (0 : Fin 4) * 1 + 1 * (0 : ℕ) = t.val; omega
  | ⟨1, _⟩ => show win0_3.index t (1 : Fin 4) * 1 + 1 * (0 : ℕ) = 0; omega
  | ⟨2, _⟩ => show win0_3.index t (2 : Fin 4) * 480 + 1 * y.val = y.val; omega
  | ⟨3, _⟩ => show win0_3.index t (3 : Fin 4) * 640 + 1 * x.val = x.val; omega

end Blocks

variable (m : (ℓ : Loc nD τ sig) → Buf (Elt Ideal) ℓ) (ρ : Dev nD → PrngReg)

/-- The specification of the argument arrays as the region finds them. -/
abbrev spec (c : Dev nD) : S16x1x480x640.Idx → EReal :=
  Cert.Cspn.G (V m c main_arg0) (V m c main_arg1) (V m c main_arg2)

/-- The image block of point t framed over zeros is the specification's frame of image t. -/
theorem framed_scr (c : Dev nD) (t : Fin cfg0.N) (r cc : ℕ) (hr : r < 488) (hc : cc < 768) :
    framedOver (F := Ideal) zeroScr (xblk m c t) (ix2 (⟨r, hr⟩ : Fin 488) (⟨cc, hc⟩ : Fin 768))
      = Cert.Cspn.framed (V m c main_arg1) (batch t) r cc := by
  by_cases h : (1 ≤ r ∧ r ≤ 480) ∧ (1 ≤ cc ∧ cc ≤ 640)
  · rw [Cert.Cspn.framed_inside _ _ _ _ h.1 h.2]
    refine Eq.trans (dif_pos (show (1 ≤ ((ix2 (⟨r, hr⟩ : Fin 488) (⟨cc, hc⟩ : Fin 768) : S488x768.Idx) 0).val ∧ ((ix2 (⟨r, hr⟩ : Fin 488) (⟨cc, hc⟩ : Fin 768) : S488x768.Idx) 0).val ≤ 480) ∧ (1 ≤ ((ix2 (⟨r, hr⟩ : Fin 488) (⟨cc, hc⟩ : Fin 768) : S488x768.Idx) 1).val ∧ ((ix2 (⟨r, hr⟩ : Fin 488) (⟨cc, hc⟩ : Fin 768) : S488x768.Idx) 1).val ≤ 640) from h)) ?_
    exact xblk_apply m c t _ _
  · rw [Cert.Cspn.framed_ring _ _ _ _ h]
    refine Eq.trans (dif_neg (show ¬((1 ≤ ((ix2 (⟨r, hr⟩ : Fin 488) (⟨cc, hc⟩ : Fin 768) : S488x768.Idx) 0).val ∧ ((ix2 (⟨r, hr⟩ : Fin 488) (⟨cc, hc⟩ : Fin 768) : S488x768.Idx) 0).val ≤ 480) ∧ (1 ≤ ((ix2 (⟨r, hr⟩ : Fin 488) (⟨cc, hc⟩ : Fin 768) : S488x768.Idx) 1).val ∧ ((ix2 (⟨r, hr⟩ : Fin 488) (⟨cc, hc⟩ : Fin 768) : S488x768.Idx) 1).val ≤ 640)) from h)) ?_
    exact zeroWord

/-- The payload of point t is block t of the specification. -/
theorem payload_eq (c : Dev nD) (t : Fin cfg0.N) :
    outPay (F := Ideal) (framedOver zeroScr (xblk m c t)) (wblk m c t) (yblk m c t)
      = ((cfg0.win 3).blk t).view.read (Elt Ideal) (spec m c) := by
  funext j
  obtain ⟨u, u', y, x, rfl⟩ : ∃ (u u' : Fin 1) (y : Fin 480) (x : Fin 640), j = ix4 u u' y x :=
    ⟨j 0, j 1, j 2, j 3, eq_ix4 j⟩
  obtain rfl : u = 0 := Subsingleton.elim _ _
  obtain rfl : u' = 0 := Subsingleton.elim _ _
  rw [outPay_apply]
  refine Eq.trans ?_ (blk_read (F := Ideal) c t (spec m c) y x).symm
  show _ = Cert.Cspn.G (V m c main_arg0) (V m c main_arg1) (V m c main_arg2) (ix4 (batch t) (0 : Fin 1) y x)
  rw [Cert.Cspn.G_apply, Cert.Cspn.Gat_chain]
  simp only [framed_scr, wblk_apply, yblk_apply, Nat.add_zero]
  rfl

/-- WHAT POINT t WRITES BACK is block t of the specification. -/
theorem flushed_eq (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3, out_at]
  exact payload_eq m c t

/-- An index of the result array is in point t's block iff each coordinate is in the block's range. -/
theorem mem_blk (t : Fin cfg0.N) (i : S16x1x480x640.Idx) :
    i ∈ ((cfg0.win 3).blk t).view.set ↔ ∀ a : Fin 4, win0_3.index t a * S1x1x480x640.size a ≤ (i a).val
      ∧ (i a).val < win0_3.index t a * S1x1x480x640.size a + S1x1x480x640.size a := by
  show i ∈ ((View.whole main_v0).slice (win0_3.rect t)).set ↔ _
  rw [View.set_slice_whole, Rect.mem_set_unit]
  exact Iff.rfl

/-- THE RESULT ARRAY after the run is the specification: slab b is point b's block. -/
theorem final (c : Dev nD) : (dats m 0 c).arrAt 3 cfg0.N = spec m c :=
  (dats m 0 c).arrAt_eq_of_cover 3 (spec m c) (fun t _ => flushed_eq m c t) fun i => by
    have hN : cfg0.N = 16 := N_0
    have h0 : (i 0).val < 16 := (i 0).isLt
    have h1 : (i 1).val < 1 := (i 1).isLt
    have h2 : (i 2).val < 480 := (i 2).isLt
    have h3 : (i 3).val < 640 := (i 3).isLt
    refine ⟨⟨(i 0).val, by omega⟩, flush0_3 _, ?_⟩
    rw [mem_blk]
    obtain ⟨-, -, -, ⟨e0, e1, e2, e3⟩⟩ := idx_facts (⟨(i 0).val, by omega⟩ : Fin cfg0.N)
    intro a
    match a with
    | ⟨0, _⟩ => show win0_3.index _ (0 : Fin 4) * 1 ≤ (i 0).val ∧ (i 0).val < win0_3.index _ (0 : Fin 4) * 1 + 1; rw [e0]; dsimp only; omega
    | ⟨1, _⟩ => show win0_3.index _ (1 : Fin 4) * 1 ≤ (i 1).val ∧ (i 1).val < win0_3.index _ (1 : Fin 4) * 1 + 1; rw [e1]; omega
    | ⟨2, _⟩ => show win0_3.index _ (2 : Fin 4) * 480 ≤ (i 2).val ∧ (i 2).val < win0_3.index _ (2 : Fin 4) * 480 + 480; rw [e2]; omega
    | ⟨3, _⟩ => show win0_3.index _ (3 : Fin 4) * 640 ≤ (i 3).val ∧ (i 3).val < win0_3.index _ (3 : Fin 4) * 640 + 640; rw [e3]; omega

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = Cert.Cspn.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks (F := Ideal) m ρ)

end Cert.Cspn.Kernel

end
-- ==== Proof.LibHostScatterSet.lean ====
/-
  The host's overwriting scatter of one WINDOW placed at the origin, read at an index.

  `x.at[:E].set(upd)` prints as a scatter whose body returns the update, with a single start
  index (the word 0) and every axis of the update a window axis: update element u lands on the
  operand's element with the same coordinates, and the elements of the operand no update lands
  on are kept. The host scatter is a left fold over all update elements in row-major order; two
  facts about that fold carry the reading — an element no update lands on is never touched, and
  an element on which updates of one common value land ends at that value — and then the landing
  place of each update element is computed from the dimension numbers. Stated for any element
  type, any dimension-numbers record whose fields are this scatter's, at rank 1 and rank 2.
-/
import Idealize.ShloMosaic.PureOps
import Idealize.ShloMosaic.Lib.ValueIdx

open Idealize.ShloMosaic Idealize.ShloMosaic.ValueIdx

namespace Cert.Lib

/-! ## The fold -/

section Fold
variable {N : Nat} {ι α : Type} (g : Fin N → Option ι) (v : Fin N → α)
  (step : (ι → α) → Fin N → (ι → α)) (i : ι)

/-- A position no listed update lands on keeps its value through the fold. -/
theorem foldl_set_miss (hmiss : ∀ r n, g n ≠ some i → step r n i = r i) :
    ∀ (l : List (Fin N)) (r : ι → α), (∀ n ∈ l, g n ≠ some i) → l.foldl step r i = r i
  | [], _, _ => rfl
  | a :: t, r, h => by
    rw [List.foldl_cons, foldl_set_miss hmiss t (step r a) (fun n hn => h n (List.mem_cons_of_mem _ hn))]
    exact hmiss r a (h a List.mem_cons_self)

/-- A position on which some listed update lands, all the updates landing there carrying one value,
    ends at that value. -/
theorem foldl_set_hit (c : α) (hmiss : ∀ r n, g n ≠ some i → step r n i = r i)
    (hhit : ∀ r n, g n = some i → step r n i = v n) :
    ∀ (l : List (Fin N)) (r : ι → α), (∃ n ∈ l, g n = some i) → (∀ n ∈ l, g n = some i → v n = c) →
      l.foldl step r i = c
  | [], _, ⟨_, hn, _⟩, _ => absurd hn List.not_mem_nil
  | a :: t, r, hex, hall => by
    rw [List.foldl_cons]
    by_cases ht : ∃ n ∈ t, g n = some i
    · exact foldl_set_hit c hmiss hhit t (step r a) ht (fun n hn => hall n (List.mem_cons_of_mem _ hn))
    · have hnone : ∀ n ∈ t, g n ≠ some i := fun n hn hg => ht ⟨n, hn, hg⟩
      rw [foldl_set_miss g step i hmiss t _ hnone]
      obtain ⟨n, hn, hg⟩ := hex
      rcases List.mem_cons.1 hn with e | hn'
      · subst e
        rw [hhit r n hg]
        exact hall n List.mem_cons_self hg
      · exact absurd ⟨n, hn', hg⟩ ht

end Fold

/-! ## The overwriting scatter -/

section Set
variable {s si u : Shape} {w : Nat} {α : Type} (d : ScatterDims s si u) (x : s.Idx → α) (idx : IVec si w)
  (upd : u.Idx → α) (i : s.Idx)

/-- An element of the operand on which no update element lands is kept. -/
theorem scatter_set_of_miss (h : ∀ j, d.resultIdx? j idx ≠ some i) :
    Host.scatter d (fun _ b => b) x idx upd i = x i := by
  unfold Host.scatter
  refine foldl_set_miss (fun n => d.resultIdx? (u.rowMajor.symm n) idx) _ i ?_ _ x (fun n _ => h _)
  intro r n hn
  dsimp only at hn ⊢
  generalize d.resultIdx? (u.rowMajor.symm n) idx = o at hn
  cases o with
  | none => rfl
  | some i0 => exact if_neg (fun e => hn (congrArg some e.symm))

/-- An element of the operand on which update element j lands — every update element landing there
    carrying j's value — ends at that value. -/
theorem scatter_set_of_hit (j : u.Idx) (hj : d.resultIdx? j idx = some i)
    (hall : ∀ j', d.resultIdx? j' idx = some i → upd j' = upd j) :
    Host.scatter d (fun _ b => b) x idx upd i = upd j := by
  unfold Host.scatter
  refine foldl_set_hit (fun n => d.resultIdx? (u.rowMajor.symm n) idx) (fun n => upd (u.rowMajor.symm n)) _ i (upd j)
    ?_ ?_ _ x ⟨u.rowMajor j, List.mem_finRange _, ?_⟩ (fun n _ hg => hall _ hg)
  · intro r n hn
    dsimp only at hn ⊢
    generalize d.resultIdx? (u.rowMajor.symm n) idx = o at hn
    cases o with
    | none => rfl
    | some i0 => exact if_neg (fun e => hn (congrArg some e.symm))
  · intro r n hn
    dsimp only at hn ⊢
    generalize d.resultIdx? (u.rowMajor.symm n) idx = o at hn
    cases o with
    | none => exact absurd hn (by simp)
    | some i0 =>
      have e : i0 = i := Option.some.inj hn
      subst e
      exact if_pos rfl
  · show d.resultIdx? (u.rowMajor.symm (u.rowMajor j)) idx = some i
    rw [Equiv.symm_apply_apply]
    exact hj

end Set

/-! ## A window at the origin, rank 2 -/

/-- Start and window coordinate on each operand axis: both starts are 0 (the one start index is the
    word 0, and it names axis 0 only), the window coordinates are the update's own. -/
theorem start_window_origin2 {N E C w : Nat} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (idx : IVec ⟨1, ![1]⟩ w) (hidx : ∀ k, (idx k).toInt = 0) (u : (⟨2, ![E, C]⟩ : Shape).Idx) :
    d.start u idx 0 = 0 ∧ d.start u idx 1 = 0 ∧ d.window u 0 = (u 0).val ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    exact hidx _
  · unfold ScatterDims.start
    rw [dif_neg (show (1 : Fin 2) ∉ ([0] : List (Fin 2)) by decide)]
  · unfold ScatterDims.window
    split
    · rfl
    · rename_i ha
      exact absurd (show (0 : Fin 2) ∈ (List.finRange 2).filter (fun a => a ∉ ([] : List (Fin 2))) by decide) ha
  · unfold ScatterDims.window
    split
    · rfl
    · rename_i ha
      exact absurd (show (1 : Fin 2) ∈ (List.finRange 2).filter (fun a => a ∉ ([] : List (Fin 2))) by decide) ha

/-- Update element u lands on the operand's element with u's coordinates. -/
theorem resultIdx?_origin2 {N E C w : Nat} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (idx : IVec ⟨1, ![1]⟩ w) (hidx : ∀ k, (idx k).toInt = 0) (hEN : E ≤ N) (u : (⟨2, ![E, C]⟩ : Shape).Idx) :
    d.resultIdx? u idx = some (ix2 ⟨(u 0).val, lt_of_lt_of_le (idx2_lt0 u) hEN⟩ (u 1)) := by
  obtain ⟨h0, h1, hw0, hw1⟩ := start_window_origin2 d huw hiw hsd hivd idx hidx u
  have hlt0 : (u 0).val < E := idx2_lt0 u
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [h0, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega
  | ⟨1, _⟩ =>
    apply Fin.ext
    show (d.start u idx 1 + (d.window u 1 : ℤ)).toNat = (u 1).val
    rw [h1, hw1]
    omega

/-- THE WINDOW AT THE ORIGIN, rank 2: rows below E are the update's, the other rows the operand's. -/
theorem scatter_set_origin2 {N E C w : Nat} {α : Type} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (x : (⟨2, ![N, C]⟩ : Shape).Idx → α) (idx : IVec ⟨1, ![1]⟩ w) (hidx : ∀ k, (idx k).toInt = 0)
    (upd : (⟨2, ![E, C]⟩ : Shape).Idx → α) (hEN : E ≤ N) (n : Fin N) (k : Fin C) :
    Host.scatter d (fun _ b => b) x idx upd (ix2 n k) =
      if h : n.val < E then upd (ix2 ⟨n.val, h⟩ k) else x (ix2 n k) := by
  by_cases h : n.val < E
  · rw [dif_pos h]
    refine scatter_set_of_hit d x idx upd (ix2 n k) (ix2 ⟨n.val, h⟩ k) ?_ ?_
    · exact (resultIdx?_origin2 d huw hiw hsd hivd idx hidx hEN _).trans rfl
    · intro j' hj'
      rw [resultIdx?_origin2 d huw hiw hsd hivd idx hidx hEN] at hj'
      have e := Option.some.inj hj'
      have e0 : (j' 0).val = n.val := congrArg Fin.val (congrFun e 0)
      have e1 : j' 1 = k := congrFun e 1
      rw [eq_ix2 j']
      congr 1
      exact congrArg₂ ix2 (Fin.ext e0) e1
  · rw [dif_neg h]
    refine scatter_set_of_miss d x idx upd (ix2 n k) ?_
    intro j hj
    rw [resultIdx?_origin2 d huw hiw hsd hivd idx hidx hEN] at hj
    have e := Option.some.inj hj
    have e0 : (j 0).val = n.val := congrArg Fin.val (congrFun e 0)
    exact h (e0 ▸ idx2_lt0 j)

/-! ## A window at the origin, rank 1 -/

/-- Start and window coordinate on the operand's one axis: the start is 0, the window coordinate
    the update's own. -/
theorem start_window_origin1 {N E w : Nat} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (idx : IVec ⟨1, ![1]⟩ w) (hidx : ∀ k, (idx k).toInt = 0) (u : (⟨1, ![E]⟩ : Shape).Idx) :
    d.start u idx 0 = 0 ∧ d.window u 0 = (u 0).val := by
  obtain ⟨uw, iw, sd, ivd, wf⟩ := d
  dsimp only at huw hiw hsd hivd
  subst huw hiw hsd hivd
  refine ⟨?_, ?_⟩
  · unfold ScatterDims.start
    rw [dif_pos (show (0 : Fin 1) ∈ ([0] : List (Fin 1)) by decide)]
    exact hidx _
  · unfold ScatterDims.window
    split
    · rfl
    · rename_i ha
      exact absurd (show (0 : Fin 1) ∈ (List.finRange 1).filter (fun a => a ∉ ([] : List (Fin 1))) by decide) ha

/-- Update element u lands on the operand's element with u's coordinate. -/
theorem resultIdx?_origin1 {N E w : Nat} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (idx : IVec ⟨1, ![1]⟩ w) (hidx : ∀ k, (idx k).toInt = 0) (hEN : E ≤ N) (u : (⟨1, ![E]⟩ : Shape).Idx) :
    d.resultIdx? u idx = some (ix1 ⟨(u 0).val, lt_of_lt_of_le (u 0).isLt hEN⟩) := by
  obtain ⟨h0, hw0⟩ := start_window_origin1 d huw hiw hsd hivd idx hidx u
  have hlt0 : (u 0).val < E := (u 0).isLt
  have hcond : ∀ a, 0 ≤ d.start u idx a + d.window u a ∧
      d.start u idx a + d.window u a < (⟨1, ![N]⟩ : Shape).size a := by
    intro a
    match a with
    | ⟨0, _⟩ =>
      show 0 ≤ d.start u idx 0 + (d.window u 0 : ℤ) ∧ d.start u idx 0 + (d.window u 0 : ℤ) < (N : ℤ)
      rw [h0, hw0]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega

/-- THE WINDOW AT THE ORIGIN, rank 1: entries below E are the update's, the others the operand's. -/
theorem scatter_set_origin1 {N E w : Nat} {α : Type} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (x : (⟨1, ![N]⟩ : Shape).Idx → α) (idx : IVec ⟨1, ![1]⟩ w) (hidx : ∀ k, (idx k).toInt = 0)
    (upd : (⟨1, ![E]⟩ : Shape).Idx → α) (hEN : E ≤ N) (n : Fin N) :
    Host.scatter d (fun _ b => b) x idx upd (ix1 n) =
      if h : n.val < E then upd (ix1 ⟨n.val, h⟩) else x (ix1 n) := by
  by_cases h : n.val < E
  · rw [dif_pos h]
    refine scatter_set_of_hit d x idx upd (ix1 n) (ix1 ⟨n.val, h⟩) ?_ ?_
    · exact (resultIdx?_origin1 d huw hiw hsd hivd idx hidx hEN _).trans rfl
    · intro j' hj'
      rw [resultIdx?_origin1 d huw hiw hsd hivd idx hidx hEN] at hj'
      have e := Option.some.inj hj'
      have e0 : (j' 0).val = n.val := congrArg Fin.val (congrFun e 0)
      rw [eq_ix1 j']
      congr 1
      exact congrArg ix1 (Fin.ext e0)
  · rw [dif_neg h]
    refine scatter_set_of_miss d x idx upd (ix1 n) ?_
    intro j hj
    rw [resultIdx?_origin1 d huw hiw hsd hivd idx hidx hEN] at hj
    have e := Option.some.inj hj
    have e0 : (j 0).val = n.val := congrArg Fin.val (congrFun e 0)
    exact h (e0 ▸ (j 0).isLt)

end Cert.Lib
-- ==== Proof.LibScatterChannel.lean ====
/-
  The host's overwriting scatter of one whole CHANNEL, read at an index.

  `x.at[:, c].set(upd)` of an operand [B, C, H, W] and an update [B, H, W] prints as a scatter
  whose body returns the update, with a single start index (the word c, naming the operand's
  axis 1), every axis of the update a window axis and the operand's axis 1 inserted: update
  element (b, y, x) lands on the operand's element (b, c, y, x). So the result is the update on
  channel c and the operand on every other channel. The two facts about the fold that carry the
  reading are those of the overwriting scatter in general (an element no update lands on is kept;
  an element on which updates of one common value land ends at that value); here the landing
  place of each update element is computed from the dimension numbers, and landing places are
  distinct for distinct update elements.
-/
import proofs.«126622_j14929306321555_1_alg».proof.Proof.LibHostScatterSet

open Idealize.ShloMosaic Idealize.ShloMosaic.ValueIdx

namespace Cert.Lib

/-! ## One channel of a rank-4 operand -/

/-- Start and window coordinate on each operand axis: the start is the index word c on axis 1 (the
    one axis the start index names) and 0 on the others; the window coordinate is 0 on the inserted
    axis 1 and the update's own coordinates, in order, on axes 0, 2, 3. -/
theorem start_window_channel {B C H W w : Nat}
    (d : ScatterDims ⟨4, ![B, C, H, W]⟩ ⟨1, ![1]⟩ ⟨3, ![B, H, W]⟩)
    (huw : d.updateWindowDims = [0, 1, 2]) (hiw : d.insertedWindowDims = [1])
    (hsd : d.scatterDimsToOperandDims = [1]) (hivd : d.indexVectorDim = 0)
    (idx : IVec ⟨1, ![1]⟩ w) (c : Nat) (hidx : ∀ k, (idx k).toInt = (c : ℤ))
    (u : (⟨3, ![B, H, W]⟩ : Shape).Idx) :
    (d.start u idx 0 = 0 ∧ d.start u idx 1 = (c : ℤ) ∧ d.start u idx 2 = 0 ∧ d.start u idx 3 = 0) ∧
    (d.window u 0 = (u 0).val ∧ d.window u 1 = 0 ∧ d.window u 2 = (u 1).val ∧ d.window u 3 = (u 2).val) := by
  obtain ⟨uw, iw, sd, ivd, wf⟩ := d
  dsimp only at huw hiw hsd hivd
  subst huw hiw hsd hivd
  refine ⟨⟨?_, ?_, ?_, ?_⟩, ⟨?_, ?_, ?_, ?_⟩⟩
  · unfold ScatterDims.start
    rw [dif_neg (show (0 : Fin 4) ∉ ([1] : List (Fin 4)) by decide)]
  · unfold ScatterDims.start
    rw [dif_pos (show (1 : Fin 4) ∈ ([1] : List (Fin 4)) by decide)]
    exact hidx _
  · unfold ScatterDims.start
    rw [dif_neg (show (2 : Fin 4) ∉ ([1] : List (Fin 4)) by decide)]
  · unfold ScatterDims.start
    rw [dif_neg (show (3 : Fin 4) ∉ ([1] : List (Fin 4)) by decide)]
  · unfold ScatterDims.window
    split
    · rfl
    · rename_i ha
      exact absurd (show (0 : Fin 4) ∈ (List.finRange 4).filter (fun a => a ∉ ([1] : List (Fin 4))) by decide) ha
  · unfold ScatterDims.window
    split
    · rename_i ha
      exact absurd ha (show (1 : Fin 4) ∉ (List.finRange 4).filter (fun a => a ∉ ([1] : List (Fin 4))) by decide)
    · rfl
  · unfold ScatterDims.window
    split
    · rfl
    · rename_i ha
      exact absurd (show (2 : Fin 4) ∈ (List.finRange 4).filter (fun a => a ∉ ([1] : List (Fin 4))) by decide) ha
  · unfold ScatterDims.window
    split
    · rfl
    · rename_i ha
      exact absurd (show (3 : Fin 4) ∈ (List.finRange 4).filter (fun a => a ∉ ([1] : List (Fin 4))) by decide) ha

/-- Update element (b, y, x) lands on the operand's element (b, c, y, x). -/
theorem resultIdx?_channel {B C H W w : Nat}
    (d : ScatterDims ⟨4, ![B, C, H, W]⟩ ⟨1, ![1]⟩ ⟨3, ![B, H, W]⟩)
    (huw : d.updateWindowDims = [0, 1, 2]) (hiw : d.insertedWindowDims = [1])
    (hsd : d.scatterDimsToOperandDims = [1]) (hivd : d.indexVectorDim = 0)
    (idx : IVec ⟨1, ![1]⟩ w) (c : Nat) (hc : c < C) (hidx : ∀ k, (idx k).toInt = (c : ℤ))
    (u : (⟨3, ![B, H, W]⟩ : Shape).Idx) :
    d.resultIdx? u idx = some (ix4 (u 0 : Fin B) (⟨c, hc⟩ : Fin C) (u 1 : Fin H) (u 2 : Fin W)) := by
  obtain ⟨⟨h0, h1, h2, h3⟩, ⟨hw0, hw1, hw2, hw3⟩⟩ := start_window_channel d huw hiw hsd hivd idx c hidx u
  have hlt0 : (u 0).val < B := (u 0).isLt
  have hlt1 : (u 1).val < H := (u 1).isLt
  have hlt2 : (u 2).val < W := (u 2).isLt
  have hcond : ∀ a, 0 ≤ d.start u idx a + d.window u a ∧
      d.start u idx a + d.window u a < (⟨4, ![B, C, H, W]⟩ : Shape).size a := by
    intro a
    match a with
    | ⟨0, _⟩ =>
      show 0 ≤ d.start u idx 0 + (d.window u 0 : ℤ) ∧ d.start u idx 0 + (d.window u 0 : ℤ) < (B : ℤ)
      rw [h0, hw0]
      omega
    | ⟨1, _⟩ =>
      show 0 ≤ d.start u idx 1 + (d.window u 1 : ℤ) ∧ d.start u idx 1 + (d.window u 1 : ℤ) < (C : ℤ)
      rw [h1, hw1]
      omega
    | ⟨2, _⟩ =>
      show 0 ≤ d.start u idx 2 + (d.window u 2 : ℤ) ∧ d.start u idx 2 + (d.window u 2 : ℤ) < (H : ℤ)
      rw [h2, hw2]
      omega
    | ⟨3, _⟩ =>
      show 0 ≤ d.start u idx 3 + (d.window u 3 : ℤ) ∧ d.start u idx 3 + (d.window u 3 : ℤ) < (W : ℤ)
      rw [h3, hw3]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega
  | ⟨1, _⟩ =>
    apply Fin.ext
    show (d.start u idx 1 + (d.window u 1 : ℤ)).toNat = c
    rw [h1, hw1]
    omega
  | ⟨2, _⟩ =>
    apply Fin.ext
    show (d.start u idx 2 + (d.window u 2 : ℤ)).toNat = (u 1).val
    rw [h2, hw2]
    omega
  | ⟨3, _⟩ =>
    apply Fin.ext
    show (d.start u idx 3 + (d.window u 3 : ℤ)).toNat = (u 2).val
    rw [h3, hw3]
    omega

/-- ONE CHANNEL OVERWRITTEN: the scatter of an update [B, H, W] into an operand [B, C, H, W] at
    the single start index c on axis 1 reads, at (b, k, y, x), the update's (b, y, x) when k is the
    channel c and the operand's (b, k, y, x) on every other channel. -/
theorem scatter_set_channel {B C H W w : Nat} {α : Type}
    (d : ScatterDims ⟨4, ![B, C, H, W]⟩ ⟨1, ![1]⟩ ⟨3, ![B, H, W]⟩)
    (huw : d.updateWindowDims = [0, 1, 2]) (hiw : d.insertedWindowDims = [1])
    (hsd : d.scatterDimsToOperandDims = [1]) (hivd : d.indexVectorDim = 0)
    (x : (⟨4, ![B, C, H, W]⟩ : Shape).Idx → α) (idx : IVec ⟨1, ![1]⟩ w) (c : Nat) (hc : c < C)
    (hidx : ∀ k, (idx k).toInt = (c : ℤ)) (upd : (⟨3, ![B, H, W]⟩ : Shape).Idx → α)
    (b : Fin B) (k : Fin C) (y : Fin H) (z : Fin W) :
    Host.scatter d (fun _ b => b) x idx upd (ix4 b k y z) =
      if k.val = c then upd (ix3 b y z) else x (ix4 b k y z) := by
  by_cases hk : k.val = c
  · rw [if_pos hk]
    refine scatter_set_of_hit d x idx upd (ix4 b k y z) (ix3 b y z) ?_ ?_
    · rw [resultIdx?_channel d huw hiw hsd hivd idx c hc hidx]
      have ek : (⟨c, hc⟩ : Fin C) = k := Fin.ext hk.symm
      rw [ek]
      rfl
    · intro j' hj'
      rw [resultIdx?_channel d huw hiw hsd hivd idx c hc hidx] at hj'
      have e := Option.some.inj hj'
      have e0 : (j' 0 : Fin B) = b := congrFun e 0
      have e1 : (j' 1 : Fin H) = y := congrFun e 2
      have e2 : (j' 2 : Fin W) = z := congrFun e 3
      rw [eq_ix3 j']
      show upd (ix3 (j' 0 : Fin B) (j' 1 : Fin H) (j' 2 : Fin W)) = upd (ix3 b y z)
      rw [e0, e1, e2]
  · rw [if_neg hk]
    refine scatter_set_of_miss d x idx upd (ix4 b k y z) ?_
    intro j hj
    rw [resultIdx?_channel d huw hiw hsd hivd idx c hc hidx] at hj
    have e := Option.some.inj hj
    have e1 : (⟨c, hc⟩ : Fin C) = k := congrFun e 1
    exact hk (congrArg Fin.val e1).symm

end Cert.Lib
-- ==== Proof.RefValue.lean ====
/-
  The reference program computes the nine-tap weighted sum of the framed image, entry by entry.

  Read backwards from its result: the last operation copies a [16, 480, 640] array into the
  [16, 1, 480, 640] result; that array is, at (b, y, x), the initial value 0 plus the sum over the
  nine channels k of a product; the product's left factor is the stack of nine shifted windows
  with channel 4 overwritten by the second image, its right factor the weight K[b, k, y, x].
  Channel k = 3 dy + dx of the stack is the window of the framed image that starts at (dy, dx):
  its entry (b, y, x) is the frame's entry (y + dy, x + dx), and the frame (the image padded by
  one ring of the value 0) has the image's entry (r - 1, c - 1) at (r, c) inside and 0 on the
  ring. Every stage is read at one index and the index arithmetic of the two reshapes is closed
  by linear arithmetic over the literal extents.
-/
import proofs.«126622_j14929306321555_1_alg».proof.Proof.Gen.ReferenceIdeal.Read
import proofs.«126622_j14929306321555_1_alg».proof.Proof.Spec
import proofs.«126622_j14929306321555_1_alg».proof.Proof.LibScatterChannel
import Idealize.ShloMosaic.Lib.KernelVsHost
import Idealize.ShloMosaic.Lib.Pipeline.Value
import Idealize.ShloMosaic.PureOps.Ideal.Laws

noncomputable section

open Idealize.ShloMosaic Idealize.ShloMosaic.ValueIdx
open Cert.ReferenceIdeal Cert.ReferenceIdeal.Gen Cert.ReferenceIdeal.Read

namespace Cert.Cspn.RefValue

/-! ## The frame: the padded image at an index -/

/-- The padding value, the integer 0 converted, is the extended real 0. -/
theorem padValue_eq_zero (i : S_.Idx) : val_main_call0_v0 (F := Ideal) i = 0 := by
  rw [val_main_call0_v0_apply, val_main_c_apply]
  show (((0#32 : BitVec 32).toInt : ℝ) : EReal) = 0
  simp

/-- The first reshape drops the unit axis: entry (b, y, x) is the image's entry (b, 0, y, x). -/
theorem reshape_read (X : SI.Idx → EReal) (b : Fin 16) (y : Fin 480) (x : Fin 640) :
    val_main_v0 (F := Ideal) X (ix3 b y x) = X (ix4 b (0 : Fin 1) y x) := by
  refine (val_main_v0_apply (F := Ideal) X _).trans (congrArg X ?_)
  have hb := b.isLt
  have hy := y.isLt
  have hx := x.isLt
  funext a
  match a with
  | ⟨0, _⟩ =>
    apply Fin.ext
    show ((b.val * 480 + y.val) * 640 + x.val) / 307200 = b.val
    omega
  | ⟨1, _⟩ => rfl
  | ⟨2, _⟩ =>
    apply Fin.ext
    show ((b.val * 480 + y.val) * 640 + x.val) / 640 % 480 = y.val
    omega
  | ⟨3, _⟩ =>
    apply Fin.ext
    show ((b.val * 480 + y.val) * 640 + x.val) % 640 = x.val
    omega

/-- The second image's reshape, likewise. -/
theorem reshape0_read (X0 : SI.Idx → EReal) (b : Fin 16) (y : Fin 480) (x : Fin 640) :
    val_main_v21 (F := Ideal) X0 (ix3 b y x) = X0 (ix4 b (0 : Fin 1) y x) := by
  refine (val_main_v21_apply (F := Ideal) X0 _).trans (congrArg X0 ?_)
  have hb := b.isLt
  have hy := y.isLt
  have hx := x.isLt
  funext a
  match a with
  | ⟨0, _⟩ =>
    apply Fin.ext
    show ((b.val * 480 + y.val) * 640 + x.val) / 307200 = b.val
    omega
  | ⟨1, _⟩ => rfl
  | ⟨2, _⟩ =>
    apply Fin.ext
    show ((b.val * 480 + y.val) * 640 + x.val) / 640 % 480 = y.val
    omega
  | ⟨3, _⟩ =>
    apply Fin.ext
    show ((b.val * 480 + y.val) * 640 + x.val) % 640 = x.val
    omega

/-- The padded image at (b, r, c) is the frame's entry (r, c). -/
theorem pad_read (X : SI.Idx → EReal) (b : Fin 16) (r : Fin 482) (c : Fin 642) :
    val_main_v1 (F := Ideal) X (ix3 b r c) = framed X b r.val c.val := by
  have hr := r.isLt
  have hc := c.isLt
  unfold val_main_v1
  by_cases hR : 1 ≤ r.val ∧ r.val ≤ 480
  · by_cases hC : 1 ≤ c.val ∧ c.val ≤ 640
    · rw [framed_inside X b r.val c.val hR hC]
      refine (pad_apply_of_inside _ _ _ _ _ pads_S16x480x640_S16x482x642_000_110_110 h_S_ (ix3 b r c)
        (ix3 b (⟨r.val - 1, by omega⟩ : Fin 480) (⟨c.val - 1, by omega⟩ : Fin 640)) ?_).trans
        (reshape_read X b _ _)
      intro a
      match a with
      | ⟨0, _⟩ =>
        show b.val = 0 + b.val * (0 + 1)
        omega
      | ⟨1, _⟩ =>
        show r.val = 1 + (r.val - 1) * (0 + 1)
        omega
      | ⟨2, _⟩ =>
        show c.val = 1 + (c.val - 1) * (0 + 1)
        omega
    · rw [framed_ring X b r.val c.val (fun h => hC h.2)]
      refine (pad_apply_of_not_inside _ _ _ _ _ pads_S16x480x640_S16x482x642_000_110_110 h_S_ (ix3 b r c)
        (2 : Fin 3) ?_).trans (padValue_eq_zero _)
      show ¬(1 ≤ c.val ∧ (c.val - 1) % (0 + 1) = 0 ∧ (c.val - 1) / (0 + 1) < 640)
      omega
  · rw [framed_ring X b r.val c.val (fun h => hR h.1)]
    refine (pad_apply_of_not_inside _ _ _ _ _ pads_S16x480x640_S16x482x642_000_110_110 h_S_ (ix3 b r c)
      (1 : Fin 3) ?_).trans (padValue_eq_zero _)
    show ¬(1 ≤ r.val ∧ (r.val - 1) % (0 + 1) = 0 ∧ (r.val - 1) / (0 + 1) < 480)
    omega

/-- The padded image at an index given by its coordinates' values. -/
theorem pad_read_of (X : SI.Idx → EReal) (j : S16x482x642.Idx) (b : Fin 16) (r c : ℕ)
    (h0 : (j 0).val = b.val) (h1 : (j 1).val = r) (h2 : (j 2).val = c) :
    val_main_v1 (F := Ideal) X j = framed X b r c := by
  have hr : r < 482 := h1 ▸ (j 1).isLt
  have hc : c < 642 := h2 ▸ (j 2).isLt
  have e : j = ix3 b (⟨r, hr⟩ : Fin 482) (⟨c, hc⟩ : Fin 642) := by
    funext a
    match a with
    | ⟨0, _⟩ => exact Fin.ext h0
    | ⟨1, _⟩ => exact Fin.ext h1
    | ⟨2, _⟩ => exact Fin.ext h2
  rw [e]
  exact pad_read X b _ _

/-! ## The nine windows, each with its unit channel axis -/

theorem piece0_read (X : SI.Idx → EReal) (b : Fin 16) (z : Fin 1) (y : Fin 480) (x : Fin 640) :
    val_main_v11 (F := Ideal) X (ix4 b z y x) = framed X b y.val x.val :=
  (val_main_v11_apply (F := Ideal) X _).trans ((val_main_v2_apply (F := Ideal) X _).trans
    (pad_read_of X _ b _ _ rfl rfl rfl))

theorem piece1_read (X : SI.Idx → EReal) (b : Fin 16) (z : Fin 1) (y : Fin 480) (x : Fin 640) :
    val_main_v12 (F := Ideal) X (ix4 b z y x) = framed X b y.val (x.val + 1) :=
  (val_main_v12_apply (F := Ideal) X _).trans ((val_main_v3_apply (F := Ideal) X _).trans
    (pad_read_of X _ b _ _ rfl rfl (Nat.add_comm 1 x.val)))

theorem piece2_read (X : SI.Idx → EReal) (b : Fin 16) (z : Fin 1) (y : Fin 480) (x : Fin 640) :
    val_main_v13 (F := Ideal) X (ix4 b z y x) = framed X b y.val (x.val + 2) :=
  (val_main_v13_apply (F := Ideal) X _).trans ((val_main_v4_apply (F := Ideal) X _).trans
    (pad_read_of X _ b _ _ rfl rfl (Nat.add_comm 2 x.val)))

theorem piece3_read (X : SI.Idx → EReal) (b : Fin 16) (z : Fin 1) (y : Fin 480) (x : Fin 640) :
    val_main_v14 (F := Ideal) X (ix4 b z y x) = framed X b (y.val + 1) x.val :=
  (val_main_v14_apply (F := Ideal) X _).trans ((val_main_v5_apply (F := Ideal) X _).trans
    (pad_read_of X _ b _ _ rfl (Nat.add_comm 1 y.val) rfl))

theorem piece5_read (X : SI.Idx → EReal) (b : Fin 16) (z : Fin 1) (y : Fin 480) (x : Fin 640) :
    val_main_v16 (F := Ideal) X (ix4 b z y x) = framed X b (y.val + 1) (x.val + 2) :=
  (val_main_v16_apply (F := Ideal) X _).trans ((val_main_v7_apply (F := Ideal) X _).trans
    (pad_read_of X _ b _ _ rfl (Nat.add_comm 1 y.val) (Nat.add_comm 2 x.val)))

theorem piece6_read (X : SI.Idx → EReal) (b : Fin 16) (z : Fin 1) (y : Fin 480) (x : Fin 640) :
    val_main_v17 (F := Ideal) X (ix4 b z y x) = framed X b (y.val + 2) x.val :=
  (val_main_v17_apply (F := Ideal) X _).trans ((val_main_v8_apply (F := Ideal) X _).trans
    (pad_read_of X _ b _ _ rfl (Nat.add_comm 2 y.val) rfl))

theorem piece7_read (X : SI.Idx → EReal) (b : Fin 16) (z : Fin 1) (y : Fin 480) (x : Fin 640) :
    val_main_v18 (F := Ideal) X (ix4 b z y x) = framed X b (y.val + 2) (x.val + 1) :=
  (val_main_v18_apply (F := Ideal) X _).trans ((val_main_v9_apply (F := Ideal) X _).trans
    (pad_read_of X _ b _ _ rfl (Nat.add_comm 2 y.val) (Nat.add_comm 1 x.val)))

theorem piece8_read (X : SI.Idx → EReal) (b : Fin 16) (z : Fin 1) (y : Fin 480) (x : Fin 640) :
    val_main_v19 (F := Ideal) X (ix4 b z y x) = framed X b (y.val + 2) (x.val + 2) :=
  (val_main_v19_apply (F := Ideal) X _).trans ((val_main_v10_apply (F := Ideal) X _).trans
    (pad_read_of X _ b _ _ rfl (Nat.add_comm 2 y.val) (Nat.add_comm 2 x.val)))

/-! ## The stack of the nine windows -/

/-- The nine pieces, in the order the stack joins them. -/
abbrev pieces (X : SI.Idx → EReal) : List ((s : Shape) × (s.Idx → EReal)) :=
  [⟨S16x1x480x640, val_main_v11 (F := Ideal) X⟩, ⟨S16x1x480x640, val_main_v12 (F := Ideal) X⟩,
   ⟨S16x1x480x640, val_main_v13 (F := Ideal) X⟩, ⟨S16x1x480x640, val_main_v14 (F := Ideal) X⟩,
   ⟨S16x1x480x640, val_main_v15 (F := Ideal) X⟩, ⟨S16x1x480x640, val_main_v16 (F := Ideal) X⟩,
   ⟨S16x1x480x640, val_main_v17 (F := Ideal) X⟩, ⟨S16x1x480x640, val_main_v18 (F := Ideal) X⟩,
   ⟨S16x1x480x640, val_main_v19 (F := Ideal) X⟩]

/-- The extent of a piece's shape on the channel axis of the stack. -/
abbrev channelExtent (s : Shape) : ℕ :=
  if h : s.rank = S16x9x480x640.rank then s.size ((1 : Fin S16x9x480x640.rank).cast h.symm) else 0

/-- Channel n of the stack is piece n: the pieces before it have extent 1 each on the channel
    axis, so n of them end at coordinate n, and the piece is read at its own channel 0. -/
theorem stack_piece (X : SI.Idx → EReal) (b : Fin 16) (y : Fin 480) (x : Fin 640)
    (n : ℕ) (hn : n < 9) (x₁ : S16x1x480x640.Idx → EReal)
    (hxk : (pieces X)[n]'hn = ⟨S16x1x480x640, x₁⟩)
    (hpre : ((((pieces X).take n).map (·.1)).map channelExtent).sum = n) :
    val_main_v20 (F := Ideal) X (ix4 b (⟨n, hn⟩ : Fin 9) y x) = x₁ (ix4 b (0 : Fin 1) y x) := by
  unfold val_main_v20
  refine concatenate_apply_piece (1 : Fin S16x9x480x640.rank) (pieces X) _ (ix4 b (⟨n, hn⟩ : Fin 9) y x) n hn
    S16x1x480x640 x₁ hxk rfl n hpre (ix4 b (0 : Fin 1) y x) ?_ ?_
  · intro a ha
    match a with
    | ⟨0, _⟩ => rfl
    | ⟨1, _⟩ => exact absurd rfl ha
    | ⟨2, _⟩ => rfl
    | ⟨3, _⟩ => rfl
  · show n + 0 = n
    rfl

/-! ## The stack with channel 4 overwritten, and the result -/

/-- The one scatter index reads the channel number 4. -/
theorem channelIndex_toInt (k : S1.Idx) : (val_main_v22 (F := Ideal) k).toInt = ((4 : ℕ) : ℤ) := by
  rw [val_main_v22_apply, val_main_c_0_apply]
  rfl

/-- The stack after the scatter: the second image on channel 4, the stack on every other channel. -/
theorem scatter_read (X X0 : SI.Idx → EReal) (b : Fin 16) (k : Fin 9) (y : Fin 480) (x : Fin 640) :
    val_main_v23 (F := Ideal) X X0 (ix4 b k y x) =
      if k.val = 4 then val_main_v21 (F := Ideal) X0 (ix3 b y x) else val_main_v20 (F := Ideal) X (ix4 b k y x) := by
  unfold val_main_v23
  exact Cert.Lib.scatter_set_channel scatter_S16x9x480x640_S1_S16x480x640_012_1_1_0 rfl rfl rfl rfl
    (val_main_v20 (F := Ideal) X) (val_main_v22 (F := Ideal)) 4 (by decide) channelIndex_toInt
    (val_main_v21 (F := Ideal) X0) b k y x

/-- Channel k of the overwritten stack at (b, y, x) is tap k. -/
theorem tap_read (X X0 : SI.Idx → EReal) (b : Fin 16) (k : Fin 9) (y : Fin 480) (x : Fin 640) :
    val_main_v23 (F := Ideal) X X0 (ix4 b k y x) = tap X X0 b y x k := by
  rw [scatter_read]
  match k with
  | ⟨0, _⟩ =>
    rw [if_neg (show ¬(0 : ℕ) = 4 by decide)]
    exact (stack_piece X b y x 0 (by decide) _ rfl rfl).trans (piece0_read X b 0 y x)
  | ⟨1, _⟩ =>
    rw [if_neg (show ¬(1 : ℕ) = 4 by decide)]
    exact (stack_piece X b y x 1 (by decide) _ rfl rfl).trans (piece1_read X b 0 y x)
  | ⟨2, _⟩ =>
    rw [if_neg (show ¬(2 : ℕ) = 4 by decide)]
    exact (stack_piece X b y x 2 (by decide) _ rfl rfl).trans (piece2_read X b 0 y x)
  | ⟨3, _⟩ =>
    rw [if_neg (show ¬(3 : ℕ) = 4 by decide)]
    exact (stack_piece X b y x 3 (by decide) _ rfl rfl).trans (piece3_read X b 0 y x)
  | ⟨4, _⟩ =>
    rw [if_pos rfl]
    exact reshape0_read X0 b y x
  | ⟨5, _⟩ =>
    rw [if_neg (show ¬(5 : ℕ) = 4 by decide)]
    exact (stack_piece X b y x 5 (by decide) _ rfl rfl).trans (piece5_read X b 0 y x)
  | ⟨6, _⟩ =>
    rw [if_neg (show ¬(6 : ℕ) = 4 by decide)]
    exact (stack_piece X b y x 6 (by decide) _ rfl rfl).trans (piece6_read X b 0 y x)
  | ⟨7, _⟩ =>
    rw [if_neg (show ¬(7 : ℕ) = 4 by decide)]
    exact (stack_piece X b y x 7 (by decide) _ rfl rfl).trans (piece7_read X b 0 y x)
  | ⟨8, _⟩ =>
    rw [if_neg (show ¬(8 : ℕ) = 4 by decide)]
    exact (stack_piece X b y x 8 (by decide) _ rfl rfl).trans (piece8_read X b 0 y x)

/-- THE REFERENCE'S VALUE: the program's result is the nine-tap weighted sum of the framed image. -/
theorem reference_eq (K : Cert.Cspn.SW.Idx → EReal) (X X0 : Cert.Cspn.SI.Idx → EReal) :
    Cert.ReferenceIdeal.Read.val_main_v26 (F := Ideal) K X X0 = Cert.Cspn.G K X X0 := by
  funext i
  obtain ⟨b, z, y, x, rfl⟩ : ∃ (b : Fin 16) (z : Fin 1) (y : Fin 480) (x : Fin 640), i = ix4 b z y x :=
    ⟨i 0, i 1, i 2, i 3, eq_ix4 i⟩
  rw [G_apply]
  refine (val_main_v26_apply (F := Ideal) K X X0 _).trans ?_
  refine (val_main_v25_apply K X X0 _).trans ?_
  rw [val_main_cst_apply]
  show Ideal.ofBits .f32 0x00000000#32 + _ = _
  rw [Ideal.ofBits_zero_f32, zero_add]
  unfold Gat
  refine Finset.sum_congr rfl fun k _ => ?_
  have e : idx_main_v25 (idx_main_v26 (ix4 b z y x)) k = ix4 b k y x := by
    funext a
    match a with
    | ⟨0, _⟩ => rfl
    | ⟨1, _⟩ => rfl
    | ⟨2, _⟩ => rfl
    | ⟨3, _⟩ => rfl
  rw [e, val_main_v24_apply]
  show val_main_v23 (F := Ideal) X X0 (ix4 b k y x) * K (ix4 b k y x) = _
  rw [tap_read]

end Cert.Cspn.RefValue

end
-- ==== Proof.lean ====
/-
  A nine-tap weighted sum of a zero-framed image, as a pipelined kernel and as array code.

  Both programs compute, for a batch of sixteen 480 x 640 images X with nine weight planes K
  and a second image X0, the array whose entry (b, y, x) is the sum over the nine taps k = 3 dy + dx
  of tap k times K[b, k, y, x], where tap k is entry (y + dy, x + dx) of X[b] framed by one ring
  of zeros, except the centre tap k = 4, which is X0[b, y, x].

  The array code pads, cuts nine shifted windows, stacks them, overwrites the centre plane with X0,
  multiplies by K and sums over the plane axis from 0. The kernel handles one batch per grid point:
  it keeps a 488 x 768 scratch that it fills with zeros at the first point only, stores the point's
  image into the scratch at offset (1, 1), reads the nine shifted windows back out of the scratch
  and adds the nine products to 0 one after the other. The ring of the scratch is zero after every
  point, because each point writes only the inner rectangle; so at every point the scratch is the
  point's image framed by zeros, and the block written back is the specification at that batch.
  Over the extended reals addition is commutative and associative, so the kernel's chain and the
  array code's sum from 0 are the same number; no entry of the arguments needs to be finite.

  The frames of the two kernel programs and the run of the array code are the generated ones; the
  statement relating the word-level kernel to its idealization is empty, the idealization having
  rewritten nothing.
-/
import proofs.«126622_j14929306321555_1_alg».proof.Defs
import proofs.«126622_j14929306321555_1_alg».proof.Proof.Gen.Kernel
import proofs.«126622_j14929306321555_1_alg».proof.Proof.Gen.Kernel.Skeleton
import proofs.«126622_j14929306321555_1_alg».proof.Proof.Gen.Kernel.Launch
import proofs.«126622_j14929306321555_1_alg».proof.Proof.Gen.Kernel.Points
import proofs.«126622_j14929306321555_1_alg».proof.Proof.Gen.Kernel.Frame
import proofs.«126622_j14929306321555_1_alg».proof.Proof.Gen.KernelIdeal
import proofs.«126622_j14929306321555_1_alg».proof.Proof.Gen.KernelIdeal.Skeleton
import proofs.«126622_j14929306321555_1_alg».proof.Proof.Gen.KernelIdeal.Launch
import proofs.«126622_j14929306321555_1_alg».proof.Proof.Gen.KernelIdeal.Points
import proofs.«126622_j14929306321555_1_alg».proof.Proof.Gen.KernelIdeal.Frame
import proofs.«126622_j14929306321555_1_alg».proof.Proof.Gen.ReferenceIdeal
import proofs.«126622_j14929306321555_1_alg».proof.Proof.Gen.Pre_finite_inputs
import proofs.«126622_j14929306321555_1_alg».proof.Proof.Gen.KernelIdeal.Value
import proofs.«126622_j14929306321555_1_alg».proof.Proof.Gen.ReferenceIdeal.Run
import proofs.«126622_j14929306321555_1_alg».proof.Proof.Gen.ReferenceIdeal.Read
import proofs.«126622_j14929306321555_1_alg».proof.Proof.KernelValue
import proofs.«126622_j14929306321555_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array code runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the array code's are the nine-tap weighted
    sum of the framed image of arguments that agree. -/
theorem algebraic : Cert.algebraic_KernelIdeal_ReferenceIdeal := by
  intro m ρ m' ρ' _ hagree
  refine ⟨fun c => Cert.Cspn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Cspn.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq m' c).trans ?_
  refine (Cert.Cspn.RefValue.reference_eq _ _ _).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
